-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2000 : Shape := ⟨2, ![4096, 2000]⟩
abbrev S100x1280x32 : Shape := ⟨3, ![100, 1280, 32]⟩
abbrev S_ : Shape := ⟨0, ![]⟩

class Facts : Prop where
  bcast_S_S100x1280x32 : S_.BroadcastsInDim S100x1280x32 (![] : Fin 0 → Fin S100x1280x32.rank)
  reducesTo_S100x1280x32_S_d0_1_2 : S100x1280x32.ReducesTo [0, 1, 2] S_
  h_S_ : 0 < S_.numel
  bcast_S_S4096x2000 : S_.BroadcastsInDim S4096x2000 (![] : Fin 0 → Fin S4096x2000.rank)
  reducesTo_S4096x2000_S_d0_1 : S4096x2000.ReducesTo [0, 1] S_

variable [Facts]

def fn {F : FTy → Type} [FloatOps F] (main_arg0 : IVec S4096x2000 32) (main_arg1 : FVec F S100x1280x32 .f32) : IVec S_ 1 :=
  let main_v0 : FVec F S100x1280x32 .f32 := Host.absf main_arg1
  let main_cst : FVec F S_ .f32 := constant S_ .f32 0x7F800000#32
  let main_v1 : FVec F S100x1280x32 .f32 := broadcastInDim S100x1280x32 ![] bcast_S_S100x1280x32 main_cst
  let main_v2 : IVec S100x1280x32 1 := cmpf .olt main_v0 main_v1
  let main_c : IVec S_ 1 := constantI S_ 1 1#1
  let main_v3 : IVec S_ 1 := (fun x v => Host.reduce IntOp.andi x v reducesTo_S100x1280x32_S_d0_1_2 h_S_) main_v2 main_c
  let main_c_0 : IVec S_ 32 := constantI S_ 32 0#32
  let main_v4 : IVec S4096x2000 32 := broadcastInDim S4096x2000 ![] bcast_S_S4096x2000 main_c_0
  let main_v5 : IVec S4096x2000 1 := cmpi .sge main_arg0 main_v4
  let main_c_1 : IVec S_ 1 := constantI S_ 1 1#1
  let main_v6 : IVec S_ 1 := (fun x v => Host.reduce IntOp.andi x v reducesTo_S4096x2000_S_d0_1 h_S_) main_v5 main_c_1
  let main_v7 : IVec S_ 1 := andi main_v3 main_v6
  let main_c_2 : IVec S_ 32 := constantI S_ 32 64#32
  let main_v8 : IVec S4096x2000 32 := broadcastInDim S4096x2000 ![] bcast_S_S4096x2000 main_c_2
  let main_v9 : IVec S4096x2000 1 := cmpi .slt main_arg0 main_v8
  let main_c_3 : IVec S_ 1 := constantI S_ 1 1#1
  let main_v10 : IVec S_ 1 := (fun x v => Host.reduce IntOp.andi x v reducesTo_S4096x2000_S_d0_1 h_S_) main_v9 main_c_3
  let main_v11 : IVec S_ 1 := andi main_v7 main_v10
  main_v11
-- ==== Kernel.lean ====
abbrev S4096x2000 : Shape := ⟨2, ![4096, 2000]⟩
abbrev S100x1280x32 : Shape := ⟨3, ![100, 1280, 32]⟩
abbrev S4096x100x20 : Shape := ⟨3, ![4096, 100, 20]⟩
abbrev S100x20x4096 : Shape := ⟨3, ![100, 20, 4096]⟩
abbrev S100x4096x32 : Shape := ⟨3, ![100, 4096, 32]⟩
abbrev S25x20x1024 : Shape := ⟨3, ![25, 20, 1024]⟩
abbrev S25x1280x32 : Shape := ⟨3, ![25, 1280, 32]⟩
abbrev S25x1024x32 : Shape := ⟨3, ![25, 1024, 32]⟩
abbrev S25x1024x64 : Shape := ⟨3, ![25, 1024, 64]⟩
abbrev S25x1x1024 : Shape := ⟨3, ![25, 1, 1024]⟩
abbrev S25x1024 : Shape := ⟨2, ![25, 1024]⟩
abbrev S25x1024x1 : Shape := ⟨3, ![25, 1024, 1]⟩
abbrev S25x64x32 : Shape := ⟨3, ![25, 64, 32]⟩
abbrev S4096x100x32 : Shape := ⟨3, ![4096, 100, 32]⟩
abbrev S4096x3200 : Shape := ⟨2, ![4096, 3200]⟩

abbrev nBuf : Space → Nat
  | .hbm => 8
  | .vmem => 6
  | .smem => 0
  | _ => 0

abbrev bufTy : (tb : Table) → Fin (tcTables nBuf tb) → BufTy
  | .hbm, ⟨0, _⟩ => ⟨S4096x2000, .i32⟩
  | .hbm, ⟨1, _⟩ => ⟨S100x1280x32, .f32⟩
  | .hbm, ⟨2, _⟩ => ⟨S4096x100x20, .i32⟩
  | .hbm, ⟨3, _⟩ => ⟨S100x20x4096, .i32⟩
  | .hbm, ⟨4, _⟩ => ⟨S100x1280x32, .bf16⟩
  | .hbm, ⟨5, _⟩ => ⟨S100x4096x32, .f32⟩
  | .hbm, ⟨6, _⟩ => ⟨S4096x100x32, .f32⟩
  | .hbm, ⟨7, _⟩ => ⟨S4096x3200, .f32⟩
  | .local _ .vmem, ⟨0, _⟩ => ⟨S25x20x1024, .i32⟩
  | .local _ .vmem, ⟨1, _⟩ => ⟨S25x20x1024, .i32⟩
  | .local _ .vmem, ⟨2, _⟩ => ⟨S25x1280x32, .bf16⟩
  | .local _ .vmem, ⟨3, _⟩ => ⟨S25x1280x32, .bf16⟩
  | .local _ .vmem, ⟨4, _⟩ => ⟨S25x1024x32, .f32⟩
  | .local _ .vmem, ⟨5, _⟩ => ⟨S25x1024x32, .f32⟩
  | _, _ => ⟨S4096x2000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S25x20x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S25x1280x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S25x1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S4096x2000_S4096x100x20 : S4096x2000.ShapeCasts S4096x100x20
  transposes_S4096x100x20_S100x20x4096_1_2_0 : S4096x100x20.Transposes [1, 2, 0] S100x20x4096
  bitsLt_bf16_f32 : FTy.bits .bf16 < FTy.bits .f32
  iota_S25x1024x64_d2_w32 : S25x1024x64.Iotas .tc 32 [2]
  inb_S25x1024x32_S25x1024x32_0_0_0 : ∀ a, (![0, 0, 0] : Fin 3 → Nat) a + S25x1024x32.size a ≤ S25x1024x32.size a
  h_S25x1024x32 : 0 < S25x1024x32.numel
  inb_S25x20x1024_S25x1x1024_0_0_0 : ∀ a, (![0, 0, 0] : Fin 3 → Nat) a + S25x1x1024.size a ≤ S25x20x1024.size a
  h_S25x1x1024 : 0 < S25x1x1024.numel
  shapeCasts_S25x1x1024_S25x1024 : S25x1x1024.ShapeCasts S25x1024
  shapeCasts_S25x1024_S25x1024x1 : S25x1024.ShapeCasts S25x1024x1
  broadcasts_S25x1024x1_S25x1024x64 : S25x1024x1.Broadcasts S25x1024x64
  natLt_1_32 : 1 < 32
  inb_S25x1280x32_S25x64x32_0_0_0 : ∀ a, (![0, 0, 0] : Fin 3 → Nat) a + S25x64x32.size a ≤ S25x1280x32.size a
  h_S25x64x32 : 0 < S25x64x32.numel
  shapeCasts_S25x64x32_S25x64x32 : S25x64x32.ShapeCasts S25x64x32
  shapeCasts_S25x1024x32_S25x1024x32 : S25x1024x32.ShapeCasts S25x1024x32
  inb_S25x20x1024_S25x1x1024_0_1_0 : ∀ a, (![0, 1, 0] : Fin 3 → Nat) a + S25x1x1024.size a ≤ S25x20x1024.size a
  inb_S25x1280x32_S25x64x32_0_64_0 : ∀ a, (![0, 64, 0] : Fin 3 → Nat) a + S25x64x32.size a ≤ S25x1280x32.size a
  inb_S25x20x1024_S25x1x1024_0_2_0 : ∀ a, (![0, 2, 0] : Fin 3 → Nat) a + S25x1x1024.size a ≤ S25x20x1024.size a
  inb_S25x1280x32_S25x64x32_0_128_0 : ∀ a, (![0, 128, 0] : Fin 3 → Nat) a + S25x64x32.size a ≤ S25x1280x32.size a
  inb_S25x20x1024_S25x1x1024_0_3_0 : ∀ a, (![0, 3, 0] : Fin 3 → Nat) a + S25x1x1024.size a ≤ S25x20x1024.size a
  inb_S25x1280x32_S25x64x32_0_192_0 : ∀ a, (![0, 192, 0] : Fin 3 → Nat) a + S25x64x32.size a ≤ S25x1280x32.size a
  inb_S25x20x1024_S25x1x1024_0_4_0 : ∀ a, (![0, 4, 0] : Fin 3 → Nat) a + S25x1x1024.size a ≤ S25x20x1024.size a
  inb_S25x1280x32_S25x64x32_0_256_0 : ∀ a, (![0, 256, 0] : Fin 3 → Nat) a + S25x64x32.size a ≤ S25x1280x32.size a
  inb_S25x20x1024_S25x1x1024_0_5_0 : ∀ a, (![0, 5, 0] : Fin 3 → Nat) a + S25x1x1024.size a ≤ S25x20x1024.size a
  inb_S25x1280x32_S25x64x32_0_320_0 : ∀ a, (![0, 320, 0] : Fin 3 → Nat) a + S25x64x32.size a ≤ S25x1280x32.size a
  inb_S25x20x1024_S25x1x1024_0_6_0 : ∀ a, (![0, 6, 0] : Fin 3 → Nat) a + S25x1x1024.size a ≤ S25x20x1024.size a
  inb_S25x1280x32_S25x64x32_0_384_0 : ∀ a, (![0, 384, 0] : Fin 3 → Nat) a + S25x64x32.size a ≤ S25x1280x32.size a
  inb_S25x20x1024_S25x1x1024_0_7_0 : ∀ a, (![0, 7, 0] : Fin 3 → Nat) a + S25x1x1024.size a ≤ S25x20x1024.size a
  inb_S25x1280x32_S25x64x32_0_448_0 : ∀ a, (![0, 448, 0] : Fin 3 → Nat) a + S25x64x32.size a ≤ S25x1280x32.size a
  inb_S25x20x1024_S25x1x1024_0_8_0 : ∀ a, (![0, 8, 0] : Fin 3 → Nat) a + S25x1x1024.size a ≤ S25x20x1024.size a
  inb_S25x1280x32_S25x64x32_0_512_0 : ∀ a, (![0, 512, 0] : Fin 3 → Nat) a + S25x64x32.size a ≤ S25x1280x32.size a
  inb_S25x20x1024_S25x1x1024_0_9_0 : ∀ a, (![0, 9, 0] : Fin 3 → Nat) a + S25x1x1024.size a ≤ S25x20x1024.size a
  inb_S25x1280x32_S25x64x32_0_576_0 : ∀ a, (![0, 576, 0] : Fin 3 → Nat) a + S25x64x32.size a ≤ S25x1280x32.size a
  inb_S25x20x1024_S25x1x1024_0_10_0 : ∀ a, (![0, 10, 0] : Fin 3 → Nat) a + S25x1x1024.size a ≤ S25x20x1024.size a
  inb_S25x1280x32_S25x64x32_0_640_0 : ∀ a, (![0, 640, 0] : Fin 3 → Nat) a + S25x64x32.size a ≤ S25x1280x32.size a
  inb_S25x20x1024_S25x1x1024_0_11_0 : ∀ a, (![0, 11, 0] : Fin 3 → Nat) a + S25x1x1024.size a ≤ S25x20x1024.size a
  inb_S25x1280x32_S25x64x32_0_704_0 : ∀ a, (![0, 704, 0] : Fin 3 → Nat) a + S25x64x32.size a ≤ S25x1280x32.size a
  inb_S25x20x1024_S25x1x1024_0_12_0 : ∀ a, (![0, 12, 0] : Fin 3 → Nat) a + S25x1x1024.size a ≤ S25x20x1024.size a
  inb_S25x1280x32_S25x64x32_0_768_0 : ∀ a, (![0, 768, 0] : Fin 3 → Nat) a + S25x64x32.size a ≤ S25x1280x32.size a
  inb_S25x20x1024_S25x1x1024_0_13_0 : ∀ a, (![0, 13, 0] : Fin 3 → Nat) a + S25x1x1024.size a ≤ S25x20x1024.size a
  inb_S25x1280x32_S25x64x32_0_832_0 : ∀ a, (![0, 832, 0] : Fin 3 → Nat) a + S25x64x32.size a ≤ S25x1280x32.size a
  inb_S25x20x1024_S25x1x1024_0_14_0 : ∀ a, (![0, 14, 0] : Fin 3 → Nat) a + S25x1x1024.size a ≤ S25x20x1024.size a
  inb_S25x1280x32_S25x64x32_0_896_0 : ∀ a, (![0, 896, 0] : Fin 3 → Nat) a + S25x64x32.size a ≤ S25x1280x32.size a
  inb_S25x20x1024_S25x1x1024_0_15_0 : ∀ a, (![0, 15, 0] : Fin 3 → Nat) a + S25x1x1024.size a ≤ S25x20x1024.size a
  inb_S25x1280x32_S25x64x32_0_960_0 : ∀ a, (![0, 960, 0] : Fin 3 → Nat) a + S25x64x32.size a ≤ S25x1280x32.size a
  inb_S25x20x1024_S25x1x1024_0_16_0 : ∀ a, (![0, 16, 0] : Fin 3 → Nat) a + S25x1x1024.size a ≤ S25x20x1024.size a
  inb_S25x1280x32_S25x64x32_0_1024_0 : ∀ a, (![0, 1024, 0] : Fin 3 → Nat) a + S25x64x32.size a ≤ S25x1280x32.size a
  inb_S25x20x1024_S25x1x1024_0_17_0 : ∀ a, (![0, 17, 0] : Fin 3 → Nat) a + S25x1x1024.size a ≤ S25x20x1024.size a
  inb_S25x1280x32_S25x64x32_0_1088_0 : ∀ a, (![0, 1088, 0] : Fin 3 → Nat) a + S25x64x32.size a ≤ S25x1280x32.size a
  inb_S25x20x1024_S25x1x1024_0_18_0 : ∀ a, (![0, 18, 0] : Fin 3 → Nat) a + S25x1x1024.size a ≤ S25x20x1024.size a
  inb_S25x1280x32_S25x64x32_0_1152_0 : ∀ a, (![0, 1152, 0] : Fin 3 → Nat) a + S25x64x32.size a ≤ S25x1280x32.size a
  inb_S25x20x1024_S25x1x1024_0_19_0 : ∀ a, (![0, 19, 0] : Fin 3 → Nat) a + S25x1x1024.size a ≤ S25x20x1024.size a
  inb_S25x1280x32_S25x64x32_0_1216_0 : ∀ a, (![0, 1216, 0] : Fin 3 → Nat) a + S25x64x32.size a ≤ S25x1280x32.size a
  transposes_S100x4096x32_S4096x100x32_1_0_2 : S100x4096x32.Transposes [1, 0, 2] S4096x100x32
  shapeCasts_S4096x100x32_S4096x3200 : S4096x100x32.ShapeCasts S4096x3200
  dot_S25x1024x64_S25x64x32_S25x1024x32_2_1_1_2_0_0_wf : DotDims.WF S25x1024x64 S25x64x32 S25x1024x32 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S25x20x1024.size a ≤ S100x20x4096.size a
  hwx0_0 : ∀ i : grid0.Coords, EltTy.bits .i32 = 32 ∨ (Rect.block (s := S100x20x4096) S25x20x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S25x1280x32.size a ≤ S100x1280x32.size a
  hwx0_1 : ∀ i : grid0.Coords, EltTy.bits .bf16 = 32 ∨ (Rect.block (s := S100x1280x32) S25x1280x32.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S25x1024x32.size a ≤ S100x4096x32.size a
  hwx0_2 : ∀ i : grid0.Coords, EltTy.bits .f32 = 32 ∨ (Rect.block (s := S100x4096x32) S25x1024x32.size (cc0_transform_2 i) (hinb0_2 i)).WholeWords (EltTy.packing .f32)

variable [Facts₀]

def dot_S25x1024x64_S25x64x32_S25x1024x32_2_1_1_2_0_0 : DotDims S25x1024x64 S25x64x32 S25x1024x32 where
  lhsContracting := [2]
  rhsContracting := [1]
  lhsNonContracting := [1]
  rhsNonContracting := [2]
  lhsBatch := [0]
  rhsBatch := [0]
  wf := dot_S25x1024x64_S25x64x32_S25x1024x32_2_1_1_2_0_0_wf

abbrev win0_0 : Pipeline.Window sig grid0 :=
  Pipeline.Window.ofSpec (Memref.whole main_v1) S25x20x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S25x1280x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S25x1024x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x2000 : Shape := ⟨2, ![4096, 2000]⟩
abbrev S100x1280x32 : Shape := ⟨3, ![100, 1280, 32]⟩
abbrev S4096x100x20 : Shape := ⟨3, ![4096, 100, 20]⟩
abbrev S20 : Shape := ⟨1, ![20]⟩
abbrev S_ : Shape := ⟨0, ![]⟩
abbrev S1x1x20 : Shape := ⟨3, ![1, 1, 20]⟩
abbrev S100 : Shape := ⟨1, ![100]⟩
abbrev S1x100x1 : Shape := ⟨3, ![1, 100, 1]⟩
abbrev S4096x100x20x1 : Shape := ⟨4, ![4096, 100, 20, 1]⟩
abbrev S4096x100x20x2 : Shape := ⟨4, ![4096, 100, 20, 2]⟩
abbrev S4096x100x20x32 : Shape := ⟨4, ![4096, 100, 20, 32]⟩
abbrev S4096x100x32 : Shape := ⟨3, ![4096, 100, 32]⟩
abbrev S4096x3200 : Shape := ⟨2, ![4096, 3200]⟩

abbrev nBuf : Space → Nat
  | .hbm => 34
  | .vmem => 0
  | .smem => 0
  | _ => 0

abbrev bufTy : (tb : Table) → Fin (tcTables nBuf tb) → BufTy
  | .hbm, ⟨0, _⟩ => ⟨S4096x2000, .i32⟩
  | .hbm, ⟨1, _⟩ => ⟨S100x1280x32, .f32⟩
  | .hbm, ⟨2, _⟩ => ⟨S4096x100x20, .i32⟩
  | .hbm, ⟨3, _⟩ => ⟨S20, .i32⟩
  | .hbm, ⟨4, _⟩ => ⟨S_, .i32⟩
  | .hbm, ⟨5, _⟩ => ⟨S20, .i32⟩
  | .hbm, ⟨6, _⟩ => ⟨S20, .i32⟩
  | .hbm, ⟨7, _⟩ => ⟨S1x1x20, .i32⟩
  | .hbm, ⟨8, _⟩ => ⟨S4096x100x20, .i32⟩
  | .hbm, ⟨9, _⟩ => ⟨S4096x100x20, .i32⟩
  | .hbm, ⟨10, _⟩ => ⟨S100, .i32⟩
  | .hbm, ⟨11, _⟩ => ⟨S1x100x1, .i32⟩
  | .hbm, ⟨12, _⟩ => ⟨S_, .i32⟩
  | .hbm, ⟨13, _⟩ => ⟨S1x100x1, .i32⟩
  | .hbm, ⟨14, _⟩ => ⟨S1x100x1, .i1⟩
  | .hbm, ⟨15, _⟩ => ⟨S_, .i32⟩
  | .hbm, ⟨16, _⟩ => ⟨S1x100x1, .i32⟩
  | .hbm, ⟨17, _⟩ => ⟨S1x100x1, .i32⟩
  | .hbm, ⟨18, _⟩ => ⟨S1x100x1, .i32⟩
  | .hbm, ⟨19, _⟩ => ⟨S_, .i32⟩
  | .hbm, ⟨20, _⟩ => ⟨S4096x100x20, .i32⟩
  | .hbm, ⟨21, _⟩ => ⟨S4096x100x20, .i1⟩
  | .hbm, ⟨22, _⟩ => ⟨S_, .i32⟩
  | .hbm, ⟨23, _⟩ => ⟨S4096x100x20, .i32⟩
  | .hbm, ⟨24, _⟩ => ⟨S4096x100x20, .i32⟩
  | .hbm, ⟨25, _⟩ => ⟨S4096x100x20, .i32⟩
  | .hbm, ⟨26, _⟩ => ⟨S4096x100x20, .i32⟩
  | .hbm, ⟨27, _⟩ => ⟨S4096x100x20x1, .i32⟩
  | .hbm, ⟨28, _⟩ => ⟨S4096x100x20x1, .i32⟩
  | .hbm, ⟨29, _⟩ => ⟨S4096x100x20x2, .i32⟩
  | .hbm, ⟨30, _⟩ => ⟨S4096x100x20x32, .f32⟩
  | .hbm, ⟨31, _⟩ => ⟨S_, .f32⟩
  | .hbm, ⟨32, _⟩ => ⟨S4096x100x32, .f32⟩
  | .hbm, ⟨33, _⟩ => ⟨S4096x3200, .f32⟩
  | _, _ => ⟨S4096x2000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_2 : Ref sig .tc := ⟨.hbm, 19, rfl⟩
abbrev main_v14 : Ref sig .tc := ⟨.hbm, 20, rfl⟩
abbrev main_v15 : Ref sig .tc := ⟨.hbm, 21, rfl⟩
abbrev main_c_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]

class Facts₀ : Prop where
  shapeCasts_S4096x2000_S4096x100x20 : S4096x2000.ShapeCasts S4096x100x20
  bcast_S_S20 : S_.BroadcastsInDim S20 (![] : Fin 0 → Fin S20.rank)
  bcast_S20_S1x1x20_2 : S20.BroadcastsInDim S1x1x20 (![2] : Fin 1 → Fin S1x1x20.rank)
  bcast_S1x1x20_S4096x100x20_0_1_2 : S1x1x20.BroadcastsInDim S4096x100x20 (![0, 1, 2] : Fin 3 → Fin S4096x100x20.rank)
  bcast_S100_S1x100x1_1 : S100.BroadcastsInDim S1x100x1 (![1] : Fin 1 → Fin S1x100x1.rank)
  bcast_S_S1x100x1 : S_.BroadcastsInDim S1x100x1 (![] : Fin 0 → Fin S1x100x1.rank)
  bcast_S_S4096x100x20 : S_.BroadcastsInDim S4096x100x20 (![] : Fin 0 → Fin S4096x100x20.rank)
  bcast_S1x100x1_S4096x100x20_0_1_2 : S1x100x1.BroadcastsInDim S4096x100x20 (![0, 1, 2] : Fin 3 → Fin S4096x100x20.rank)
  bcast_S4096x100x20_S4096x100x20x1_0_1_2 : S4096x100x20.BroadcastsInDim S4096x100x20x1 (![0, 1, 2] : Fin 3 → Fin S4096x100x20x1.rank)
  concatenates_S4096x100x20x1_S4096x100x20x1_S4096x100x20x2_d3 : Shape.Concatenates [S4096x100x20x1, S4096x100x20x1] S4096x100x20x2 3
  reducesTo_S4096x100x20x32_S4096x100x32_d2 : S4096x100x20x32.ReducesTo [2] S4096x100x32
  h_S_ : 0 < S_.numel
  shapeCasts_S4096x100x32_S4096x3200 : S4096x100x32.ShapeCasts S4096x3200
  gather_S100x1280x32_S4096x100x20x2_S4096x100x20x32_3_01_n_n_01_3_1132_wf : GatherDims.WF S100x1280x32 S4096x100x20x2 S4096x100x20x32 [3] [0, 1] [] [0, 1] [] 3 ![1, 1, 32]

variable [Facts₀]

def gather_S100x1280x32_S4096x100x20x2_S4096x100x20x32_3_01_n_n_01_3_1132 : GatherDims S100x1280x32 S4096x100x20x2 S4096x100x20x32 where
  offsetDims := [3]
  collapsedSliceDims := [0, 1]
  operandBatchingDims := []
  startIndicesBatchingDims := []
  startIndexMap := [0, 1]
  indexVectorDim := 3
  sliceSizes := ![1, 1, 32]
  wf := gather_S100x1280x32_S4096x100x20x2_S4096x100x20x32_3_01_n_n_01_3_1132_wf

class Facts : Prop extends Facts₀ where

variable [Facts]
-- ==== Proof.LeafSpec.lean ====
/-
  The leaf embedding as ONE function of the two argument arrays.

  `leaves : i32[4096, 2000]` holds, for each of 4096 samples, the leaf reached in each of 2000 trees; the trees come in
  100 splits of 20, tree `t` of split `s` being column `20 s + t`. `embed_w : f32[100, 1280, 32]` holds, per split, a table of
  1280 = 20 × 64 rows of 32 numbers: rows `64 t … 64 t + 63` are tree `t`'s, one row per leaf. The result
  `f32[4096, 3200]` has, for sample `b` and column `q = 32 s + e`, the sum over the 20 trees of split `s` of coordinate `e`
  of the row the sample's leaf selects in that tree's part of the table:

      G leaves w (b, 32 s + e) = ∑ t < 20, w (s, 64 t + leaves (b, 20 s + t), e).

  No arithmetic law beyond the commutative monoid of the extended reals' addition enters, so the value is the same at
  infinite table entries.
-/
import Idealize.ShloMosaic.PureOps.Ideal
import Idealize.ShloMosaic.Lib.ValueIdx

noncomputable section

open scoped BigOperators

namespace Cert.LeafEmbed

open Idealize.ShloMosaic Idealize.ShloMosaic.ValueIdx

/-- The row of a split's table that leaf `l` of tree `t` selects: `64 t + l`. The leaf is taken modulo 64 so that the
    row is defined for every word; a leaf in its range `[0, 64)` is its own remainder (`row_val`). -/
def row (t : Fin 20) (l : BitVec 32) : Fin 1280 :=
  ⟨64 * t.val + l.toNat % 64, by have := t.isLt; have := Nat.mod_lt l.toNat (show 0 < 64 by decide); omega⟩

theorem row_val (t : Fin 20) (l : BitVec 32) (hl : l.toNat < 64) : (row t l).val = 64 * t.val + l.toNat := by
  show 64 * t.val + l.toNat % 64 = _
  rw [Nat.mod_eq_of_lt hl]

/-- Output column `q` belongs to split `q / 32` … -/
def split (q : Fin 3200) : Fin 100 := ⟨q.val / 32, by have := q.isLt; omega⟩
/-- … and is coordinate `q % 32` of that split's embedding. -/
def coord (q : Fin 3200) : Fin 32 := ⟨q.val % 32, Nat.mod_lt _ (by decide)⟩
/-- Tree `t` of split `s` is column `20 s + t` of the leaves. -/
def tree (s : Fin 100) (t : Fin 20) : Fin 2000 := ⟨20 * s.val + t.val, by have := s.isLt; have := t.isLt; omega⟩

/-- The embedding of sample `b` for split `s`, at coordinate `e`: the sum over the split's 20 trees of coordinate `e` of
    the table row the sample's leaf selects. -/
def Rat (L : IVec ⟨2, ![4096, 2000]⟩ 32) (W : (⟨3, ![100, 1280, 32]⟩ : Shape).Idx → EReal) (s : Fin 100) (b : Fin 4096) (e : Fin 32) : EReal :=
  ∑ t : Fin 20, W (ix3 s (row t (L (ix2 b (tree s t)))) e)

/-- The same laid out split-major, `[100, 4096, 32]`: the array the kernel's region writes. -/
def R (L : IVec ⟨2, ![4096, 2000]⟩ 32) (W : (⟨3, ![100, 1280, 32]⟩ : Shape).Idx → EReal) : (⟨3, ![100, 4096, 32]⟩ : Shape).Idx → EReal :=
  fun j => Rat L W ⟨(j 0).val, (j 0).isLt⟩ ⟨(j 1).val, (j 1).isLt⟩ ⟨(j 2).val, (j 2).isLt⟩

/-- The embedding at sample `b`, column `q = 32 s + e`. -/
def Gat (L : IVec ⟨2, ![4096, 2000]⟩ 32) (W : (⟨3, ![100, 1280, 32]⟩ : Shape).Idx → EReal) (b : Fin 4096) (q : Fin 3200) : EReal :=
  Rat L W (split q) b (coord q)

/-- The embedding, as the whole result array. -/
def G (L : IVec ⟨2, ![4096, 2000]⟩ 32) (W : (⟨3, ![100, 1280, 32]⟩ : Shape).Idx → EReal) : (⟨2, ![4096, 3200]⟩ : Shape).Idx → EReal :=
  fun i => Gat L W ⟨(i 0).val, idx2_lt0 i⟩ ⟨(i 1).val, idx2_lt1 i⟩

end Cert.LeafEmbed

end
-- ==== Proof.LeafRange.lean ====
/-
  The stated domain read out of the printed precondition: every leaf lies in `[0, 64)`.

  The precondition is a single bit, the conjunction of three `all`s, each taken over every element of an array of bits:
  the table's entries are finite, `leaves ≥ 0`, and `leaves < 64`, the two comparisons SIGNED. A conjunction of bits is 1
  only when each of them is, and an `all` is 1 only when every element it ranges over is; so where the precondition is 1,
  every leaf `l` satisfies `0 ≤ l < 64` as a signed word. A 32-bit word whose signed value is not negative has its top
  bit clear, so its signed and unsigned values are the same number, and that number is below 64.
-/
import proofs.«403381_j56607668961387_2_alg».proof.Pre_finite_inputs
import Idealize.ShloMosaic.Lib.ReduceAll
import Idealize.ShloMosaic.Lib.StableHlo.Predicate
import Idealize.ShloMosaic.Lib.ValueIdx

noncomputable section

namespace Cert.LeafEmbed

open Idealize.ShloMosaic Idealize.ShloMosaic.ValueIdx

namespace LeafRange

/-- An array of rank 0 has exactly one index: there is no axis on which two indices could differ. Hence a reduction
    into such an array takes in every element of its operand. -/
theorem scalarIdx_subsingleton : Subsingleton Cert.Pre_finite_inputs.S_.Idx :=
  ⟨fun _ _ => funext fun d => d.elim0⟩

/-- A 32-bit word `w` with `0 ≤ w` and `w < 64`, both read SIGNED, is below 64 read unsigned. The signed value of `w` is
    `w.toNat` when `w.toNat < 2³¹` and `w.toNat - 2³²`, a negative number, otherwise; `0 ≤ w` excludes the second case,
    and in the first the signed bound `w < 64` is the bound on `w.toNat` itself. -/
theorem toNat_lt_of_signed_range (w : BitVec 32) (h0 : IntOp.cmpi .sge w 0#32 = 1#1)
    (h64 : IntOp.cmpi .slt w 64#32 = 1#1) : w.toNat < 64 := by
  -- the two comparison bits, as inequalities between signed values
  have hlo : (0#32 : BitVec 32).toInt ≤ w.toInt := by
    simpa only [IntOp.cmpi, StableHlo.Predicate.ofBool_eq_one_iff, BitVec.sle, decide_eq_true_eq] using h0
  have hhi : w.toInt < (64#32 : BitVec 32).toInt := by
    simpa only [IntOp.cmpi, StableHlo.Predicate.ofBool_eq_one_iff, BitVec.slt, decide_eq_true_eq] using h64
  rw [show (0#32 : BitVec 32).toInt = 0 by decide] at hlo
  rw [show (64#32 : BitVec 32).toInt = 64 by decide] at hhi
  -- the signed value in terms of the unsigned one, by cases on the top bit
  rw [BitVec.toInt_eq_toNat_cond] at hlo hhi
  have := w.isLt
  split at hlo <;> omega

/-- The precondition, element by element: where it holds, each leaf passes both signed comparisons, `leaf ≥ 0` and
    `leaf < 64`. The precondition's bit is `(finite ∧ all (leaves ≥ 0)) ∧ all (leaves < 64)`; a conjunction that is 1 has both
    conjuncts 1, and an `all` over the whole array that is 1 has a 1 at every index. The constants 0 and 64 reach the
    comparison as scalars broadcast to the leaves' shape, which read 0 and 64 at every index. -/
theorem signed_range_of_pre {F : FTy → Type} [FloatOps F] [Cert.Pre_finite_inputs.Facts]
    (L : IVec Cert.Pre_finite_inputs.S4096x2000 32) (W : FVec F Cert.Pre_finite_inputs.S100x1280x32 .f32)
    (h : Cert.Pre_finite_inputs.fn (F := F) L W = fun _ => 1#1) (i : Cert.Pre_finite_inputs.S4096x2000.Idx) :
    IntOp.cmpi .sge (L i) 0#32 = 1#1 ∧ IntOp.cmpi .slt (L i) 64#32 = 1#1 := by
  haveI := scalarIdx_subsingleton
  -- the precondition's one bit, with the printed chain of operations written out
  have e := congrFun h ix0
  dsimp only [Cert.Pre_finite_inputs.fn] at e
  -- (finite ∧ nonneg) ∧ below: keep the two range conjuncts
  obtain ⟨hfn, hbelow⟩ := IntOp.andi_eq_one.1 e
  obtain ⟨-, hnonneg⟩ := IntOp.andi_eq_one.1 hfn
  -- each is an `all` over the whole array: read it at index i
  exact ⟨Host.reduce_andi_all _ _ _ _ _ hnonneg i, Host.reduce_andi_all _ _ _ _ _ hbelow i⟩

end LeafRange

/-- Where the precondition holds, every leaf is a word below 64. -/
theorem leaves_lt_of_pre {F : FTy → Type} [FloatOps F] [Cert.Pre_finite_inputs.Facts]
    (L : IVec Cert.Pre_finite_inputs.S4096x2000 32) (W : FVec F Cert.Pre_finite_inputs.S100x1280x32 .f32)
    (h : Cert.Pre_finite_inputs.fn (F := F) L W = fun _ => 1#1) : ∀ i, (L i).toNat < 64 := by
  intro i
  obtain ⟨h0, h64⟩ := LeafRange.signed_range_of_pre L W h i
  exact LeafRange.toNat_lt_of_signed_range (L i) h0 h64

end Cert.LeafEmbed

end
-- ==== Proof.RefValue.lean ====
/-
  The reference's result is the embedding `G`, where every leaf lies in `[0, 64)`.

  The reference reshapes the leaves to `[4096, 100, 20]`, so that position `(b, s, t)` holds `leaves[b, 20 s + t]`, and
  builds for every such position a start index of two words: the split `s` (an iota along the split axis) and the row
  `leaves[b, 20 s + t] + t · 64` (the leaf shifted into tree `t`'s part of the table). Each word is passed through
  "add the axis size if negative", the two are joined along a new last axis, and a gather takes from `embed_w`, at
  every position, the 32 numbers at (split word, row word), each word read signed and clamped into its axis. A sum over
  the tree axis starting from the constant 0 and a reshape `[4096, 100, 32] → [4096, 3200]` finish.

  With every leaf in `[0, 64)` no word is negative and none leaves its axis: `s ≤ 99` and `64 t + leaf ≤ 1279`. So the
  wrap-around and the clamp are both the identity, position `(b, s, t, e)` of the gather is
  `embed_w[s, 64 t + leaves[b, 20 s + t], e]`, and result element `(b, 32 s + e)` is the sum of these over `t < 20`:
  the specification's `G`.

  The road below: the gather read at an index for ANY index array (`ref_gather_read`); the joined index array's two
  components (`ref_index_fst`, `ref_index_snd`); the two words (`ref_split_word`, `ref_row_word`); the gathered
  element (`ref_gathered`); the index maps of the sum and the last reshape (`ref_idx_term`); the result (`ref_value`).
-/
import proofs.«403381_j56607668961387_2_alg».proof.Proof.Gen.ReferenceIdeal.Read
import proofs.«403381_j56607668961387_2_alg».proof.Proof.LeafSpec
import Idealize.ShloMosaic.Lib.StableHlo.Predicate

noncomputable section

open scoped BigOperators

namespace Cert.LeafEmbed

open Idealize.ShloMosaic Idealize.ShloMosaic.ValueIdx Cert.ReferenceIdeal

/-! ## The gather at an index, for any index array -/

/-- The reference gather's dimension numbers: the index vector is the start indices' last axis, its two components address
    operand axes 0 and 1 (collapsed, slice size 1); operand axis 2 is taken whole as the result's last axis. -/
abbrev refDims : GatherDims S100x1280x32 S4096x100x20x2 S4096x100x20x32 :=
  gather_S100x1280x32_S4096x100x20x2_S4096x100x20x32_3_01_n_n_01_3_1132

/-- Result index `(b, s, t, e)` reads component `c` of its start index at `(b, s, t, c)`: its three batch coordinates,
    then the component on the index vector's axis. -/
theorem refDims_siIdx (b : Fin 4096) (s : Fin 100) (t : Fin 20) (e : Fin 32) (c : Fin refDims.startIndexMap.length) :
    refDims.siIdx (ix4 b s t e) c = ix4 b s t ⟨c.val, c.isLt⟩ := by
  funext a; refine Fin.ext ?_
  match a with
  | ⟨0, _⟩ => rfl
  | ⟨1, _⟩ => rfl
  | ⟨2, _⟩ => rfl
  | ⟨3, _⟩ => rfl

/-- THE GATHER READ AT `(b, s, t, e)`: the operand at (first start component, second start component, `e`), each component
    read signed off the index array at `(b, s, t, ·)` and clamped into its axis, `[0, 99]` and `[0, 1279]`. -/
theorem ref_gather_read {α : Type} {w : Nat} (x : S100x1280x32.Idx → α) (idx : IVec S4096x100x20x2 w)
    (b : Fin 4096) (s : Fin 100) (t : Fin 20) (e : Fin 32) :
    Host.gather refDims x idx (ix4 b s t e)
      = x (ix3 ⟨min (idx (ix4 b s t 0)).toInt.toNat 99, by omega⟩
              ⟨min (idx (ix4 b s t 1)).toInt.toNat 1279, by omega⟩ e) := by
  unfold Host.gather
  congr 1
  funext a
  refine Fin.ext ?_
  have hnb : ∀ a : Fin 3, a ∉ refDims.operandBatchingDims := fun a => List.not_mem_nil
  -- per operand axis the index is (clamped start) + (batching coordinate) + (offset coordinate); there is no batching axis
  match a with
  | ⟨0, _⟩ =>
    -- a collapsed axis in the start index map: the clamped first component, no offset
    show refDims.start (ix4 b s t e) idx 0 + refDims.batchCoord (ix4 b s t e) 0 + refDims.offCoord (ix4 b s t e) 0 = _
    rw [GatherDims.batchCoord_eq_zero _ _ _ (hnb 0),
      GatherDims.offCoord_eq_zero _ _ _ (fun h => ((GatherDims.mem_sKept _ _).mp h).1 (by decide))]
    simp only [Nat.add_zero]
    unfold GatherDims.start
    rw [dif_pos (show (0 : Fin 3) ∈ refDims.startIndexMap by decide), refDims_siIdx]
    rfl
  | ⟨1, _⟩ =>
    -- likewise the second component
    show refDims.start (ix4 b s t e) idx 1 + refDims.batchCoord (ix4 b s t e) 1 + refDims.offCoord (ix4 b s t e) 1 = _
    rw [GatherDims.batchCoord_eq_zero _ _ _ (hnb 1),
      GatherDims.offCoord_eq_zero _ _ _ (fun h => ((GatherDims.mem_sKept _ _).mp h).1 (by decide))]
    simp only [Nat.add_zero]
    unfold GatherDims.start
    rw [dif_pos (show (1 : Fin 3) ∈ refDims.startIndexMap by decide), refDims_siIdx]
    rfl
  | ⟨2, _⟩ =>
    -- the one kept axis, outside the start index map: start 0, the offset is the result's last coordinate
    show refDims.start (ix4 b s t e) idx 2 + refDims.batchCoord (ix4 b s t e) 2 + refDims.offCoord (ix4 b s t e) 2 = _
    rw [GatherDims.batchCoord_eq_zero _ _ _ (hnb 2)]
    unfold GatherDims.start GatherDims.offCoord
    rw [dif_neg (show (2 : Fin 3) ∉ refDims.startIndexMap by decide),
      dif_pos (show (2 : Fin 3) ∈ refDims.sKept by decide)]
    simp only [Nat.add_zero, Nat.zero_add]
    rfl

/-! ## The index array: two pieces of extent one, joined along the last axis -/

/-- Component 0 of the index array at `(b, s, t)` is the first joined piece, the split indices, there. -/
theorem ref_index_fst (L : IVec S4096x2000 32) (b : Fin 4096) (s : Fin 100) (t : Fin 20) :
    Read.val_main_v22 (F := Ideal) L (ix4 b s t 0) = Read.val_main_v20 (F := Ideal) (ix4 b s t 0) := by
  unfold Read.val_main_v22
  exact concatenate_pair_apply_left (t := S4096x100x20x2) (s₁ := S4096x100x20x1) (s₂ := S4096x100x20x1) 3 _ _ _
    (ix4 b s t (0 : Fin 2)) rfl (ix4 b s t (0 : Fin 1)) (fun a =>
      match a with | ⟨0, _⟩ => rfl | ⟨1, _⟩ => rfl | ⟨2, _⟩ => rfl | ⟨3, _⟩ => rfl)

/-- Component 1 is the second joined piece, the row indices, at its one position along the joined axis (`1 = 0 + 1`). -/
theorem ref_index_snd (L : IVec S4096x2000 32) (b : Fin 4096) (s : Fin 100) (t : Fin 20) :
    Read.val_main_v22 (F := Ideal) L (ix4 b s t 1) = Read.val_main_v21 (F := Ideal) L (ix4 b s t 0) := by
  unfold Read.val_main_v22
  exact concatenate_pair_apply_right (t := S4096x100x20x2) (s₁ := S4096x100x20x1) (s₂ := S4096x100x20x1) 3 _ _ _
    (ix4 b s t (1 : Fin 2)) rfl rfl (ix4 b s t (0 : Fin 1)) (fun a ha =>
      match a, ha with
      | ⟨0, _⟩, _ => rfl | ⟨1, _⟩, _ => rfl | ⟨2, _⟩, _ => rfl
      | ⟨3, _⟩, ha => absurd rfl ha) rfl

/-! ## The two words of a start index -/

/-- "Add the axis size `n` if negative" leaves a word that is not negative alone: the signed comparison with 0 gives the
    bit 0, and the select keeps the word. -/
theorem ref_wrap_nonneg (w n : BitVec 32) (hw : w.toNat < 2 ^ 31) :
    Scalar.select (IntOp.cmpi .slt w 0#32) (IntOp.addi w n) w = w := by
  have hc : IntOp.cmpi .slt w 0#32 = 0#1 :=
    eq_zero_of_ne_one fun h => by
      have := (StableHlo.Predicate.slt_iff_toNat hw (by decide)).mp h
      simp at this
  rw [hc, select_zero]

/-- The split component of the start index at `(b, s, t)` is the word `s`: the iota along the split axis, which is not
    negative and so passes the wrap-around unchanged. -/
theorem ref_split_word (b : Fin 4096) (s : Fin 100) (t : Fin 20) :
    Read.val_main_v20 (F := Ideal) (ix4 b s t 0) = BitVec.ofNat 32 s.val := by
  rw [Read.val_main_v20_apply, Read.val_main_v19_apply, Read.val_main_v13_apply, Read.val_main_v10_apply,
    Read.val_main_v12_apply, Read.val_main_v9_apply, Read.val_main_v11_apply, Read.val_main_v8_apply,
    Read.val_main_v7_apply, Read.val_main_c_0_apply, Read.val_main_c_1_apply]
  show Scalar.select (IntOp.cmpi .slt (BitVec.ofNat 32 s.val) 0#32) (IntOp.addi (BitVec.ofNat 32 s.val) 100#32)
    (BitVec.ofNat 32 s.val) = BitVec.ofNat 32 s.val
  exact ref_wrap_nonneg _ _ (by have := s.isLt; rw [BitVec.toNat_ofNat]; omega)

/-- The first reshape read backwards: position `(b, s, t)` of `[4096, 100, 20]` is column `20 s + t` of row `b`, since
    `(100 b + s) · 20 + t = 2000 b + (20 s + t)` with `20 s + t < 2000`. -/
theorem ref_idx_leaf (b : Fin 4096) (s : Fin 100) (t : Fin 20) :
    Read.idx_main_v0 (Read.idx_main_v21 (ix4 b s t (0 : Fin 1))) = ix2 b (tree s t) := by
  have := b.isLt; have := s.isLt; have := t.isLt
  funext a
  match a with
  | ⟨0, _⟩ => exact Fin.ext (show ((b.val * 100 + s.val) * 20 + t.val) / 2000 = b.val by omega)
  | ⟨1, _⟩ => exact Fin.ext (show ((b.val * 100 + s.val) * 20 + t.val) % 2000 = 20 * s.val + t.val by omega)

/-- With the leaf below 64 the row word `leaf + t · 64` does not wrap around `2³²`: its value is `64 t + leaf`, at most
    `64 · 19 + 63 = 1279`. -/
theorem ref_row_word_toNat (l : BitVec 32) (t : Fin 20) (hl : l.toNat < 64) :
    (l + BitVec.ofNat 32 t.val * 64#32).toNat = 64 * t.val + l.toNat := by
  have := t.isLt
  rw [BitVec.toNat_add, BitVec.toNat_mul, BitVec.toNat_ofNat]
  show (l.toNat + t.val % 2 ^ 32 * 64 % 2 ^ 32) % 2 ^ 32 = _
  omega

/-- The row component of the start index at `(b, s, t)` is the word `leaves[b, 20 s + t] + t · 64`, which is not negative
    and so passes the wrap-around unchanged. -/
theorem ref_row_word (L : IVec S4096x2000 32) (hL : ∀ i, (L i).toNat < 64) (b : Fin 4096) (s : Fin 100) (t : Fin 20) :
    Read.val_main_v21 (F := Ideal) L (ix4 b s t 0) = L (ix2 b (tree s t)) + BitVec.ofNat 32 t.val * 64#32 := by
  rw [Read.val_main_v21_apply, Read.val_main_v18_apply, Read.val_main_v15_apply, Read.val_main_v17_apply,
    Read.val_main_v14_apply, Read.val_main_v16_apply, Read.val_main_v6_apply, Read.val_main_v0_apply,
    Read.val_main_v5_apply, Read.val_main_v4_apply, Read.val_main_v3_apply, Read.val_main_v2_apply,
    Read.val_main_v1_apply, Read.val_main_c_apply, Read.val_main_c_2_apply, Read.val_main_c_3_apply, ref_idx_leaf]
  show Scalar.select (IntOp.cmpi .slt (L (ix2 b (tree s t)) + BitVec.ofNat 32 t.val * 64#32) 0#32)
    (IntOp.addi (L (ix2 b (tree s t)) + BitVec.ofNat 32 t.val * 64#32) 1280#32)
    (L (ix2 b (tree s t)) + BitVec.ofNat 32 t.val * 64#32) = _
  exact ref_wrap_nonneg _ _ (by
    have := t.isLt; have := hL (ix2 b (tree s t))
    rw [ref_row_word_toNat _ _ (hL _)]; omega)

/-! ## The gathered element, and the sum -/

/-- THE GATHERED ELEMENT: position `(b, s, t, e)` of the gather is coordinate `e` of row `64 t + leaves[b, 20 s + t]` of
    split `s`'s table. Both start components are in range (`s ≤ 99`, `64 t + leaf ≤ 1279`): the clamp is the identity. -/
theorem ref_gathered (L : IVec S4096x2000 32) (W : FVec Ideal S100x1280x32 .f32) (hL : ∀ i, (L i).toNat < 64)
    (b : Fin 4096) (s : Fin 100) (t : Fin 20) (e : Fin 32) :
    Read.val_main_v23 (F := Ideal) L W (ix4 b s t e) = W (ix3 s (row t (L (ix2 b (tree s t)))) e) := by
  have hs := s.isLt
  have ht := t.isLt
  have hl := hL (ix2 b (tree s t))
  unfold Read.val_main_v23
  rw [show gather_S100x1280x32_S4096x100x20x2_S4096x100x20x32_3_01_n_n_01_3_1132 = refDims from rfl, ref_gather_read]
  congr 1
  funext a
  refine Fin.ext ?_
  match a with
  | ⟨0, _⟩ =>
    -- the split word s reads signed as s, and min s 99 = s
    show min (Read.val_main_v22 (F := Ideal) L (ix4 b s t 0)).toInt.toNat 99 = s.val
    rw [ref_index_fst, ref_split_word, StableHlo.Predicate.toInt_ofNat_small _ (by omega), Int.toNat_natCast]
    omega
  | ⟨1, _⟩ =>
    -- the row word reads signed as 64 t + leaf, and min (64 t + leaf) 1279 = 64 t + leaf
    show min (Read.val_main_v22 (F := Ideal) L (ix4 b s t 1)).toInt.toNat 1279 = (row t (L (ix2 b (tree s t)))).val
    rw [ref_index_snd, ref_row_word L hL, row_val t _ hl,
      StableHlo.Predicate.toInt_eq_toNat_of_lt (by rw [ref_row_word_toNat _ _ hl]; omega), Int.toNat_natCast,
      ref_row_word_toNat _ _ hl]
    omega
  | ⟨2, _⟩ => rfl

/-- The last reshape and the sum's index map together: term `k` of the sum for result element `(b, q)` is the gathered
    array at `(b, q / 32, k, q % 32)`, since `3200 b + q` splits as `((100 b + q / 32) · 32) + q % 32`. -/
theorem ref_idx_term (b : Fin 4096) (q : Fin 3200) (k : Fin 20) :
    Read.idx_main_v24 (Read.idx_main_v25 (ix2 b q)) k = ix4 b (split q) k (coord q) := by
  have := b.isLt; have := q.isLt
  funext a
  match a with
  | ⟨0, _⟩ => exact Fin.ext (show (b.val * 3200 + q.val) / 3200 = b.val by omega)
  | ⟨1, _⟩ => exact Fin.ext (show (b.val * 3200 + q.val) / 32 % 100 = q.val / 32 by omega)
  | ⟨2, _⟩ => rfl
  | ⟨3, _⟩ => exact Fin.ext (show (b.val * 3200 + q.val) % 32 = q.val % 32 by omega)

/-- The reference's last stage, as a function of the two arguments, is `G`. -/
theorem ref_value (L : IVec S4096x2000 32) (W : FVec Ideal S100x1280x32 .f32) (hL : ∀ i, (L i).toNat < 64) :
    Cert.ReferenceIdeal.Read.val_main_v25 (F := Ideal) L W = G L W := by
  funext i
  obtain ⟨b, q, rfl⟩ : ∃ b q, i = ix2 b q := ⟨i 0, i 1, eq_ix2 i⟩
  -- the reshape reads the sum at (b, q / 32, q % 32); the sum starts from the constant 0, which adds nothing
  rw [Read.val_main_v25_apply, Read.val_main_v24_apply, Read.val_main_cst_apply]
  show Ideal.ofBits .f32 0x00000000#32 + _ = Rat L W (split q) b (coord q)
  rw [Ideal.ofBits_zero_f32, zero_add]
  -- term by term, the gathered element is the specification's summand
  refine Finset.sum_congr rfl fun t _ => ?_
  rw [ref_idx_term, ref_gathered L W hL]

end Cert.LeafEmbed

end
-- ==== Proof.BlockValue.lean ====
/-
  What the kernel body leaves in its output block, at one entry, as a function of its two input blocks.

  The body zeroes the output block and then, for each of the 20 trees of the block's splits, adds to it the batched product
  of a 0/1 matrix with 64 rows of the weight block: the 0/1 matrix has, for split `s` and sample `b`, a 1 at the position
  equal to the leaf of that tree, and the 64 rows are the tree's part of the split's table. Such a product is, entry by
  entry, the one table row where the 1 stands (`onehot_dot`), so each tree adds the row its leaf selects (`step_apply`) and
  after the 20 trees entry `(s, b, e)` holds their sum (`block_apply`). A leaf outside the 64 positions would match none of
  them and add nothing; the hypothesis that the leaves lie below 64 is what makes each product a row of the table.
-/
import proofs.«403381_j56607668961387_2_alg».proof.Proof.Gen.KernelIdeal.Frame
import proofs.«403381_j56607668961387_2_alg».proof.Proof.LeafSpec
import Idealize.ShloMosaic.PureOps.Ideal.Laws
import Idealize.ShloMosaic.Lib.Pipeline.Value
import Idealize.ShloMosaic.Lib.ValueLayout
import Idealize.ShloMosaic.Lib.StableHlo.Predicate

set_option maxRecDepth 16384

noncomputable section

open scoped BigOperators

namespace Cert.LeafEmbed

open Idealize.ShloMosaic Idealize.ShloMosaic.ValueIdx Idealize.ShloMosaic.Tactic Cert.KernelIdeal Cert.KernelIdeal.Gen

/-- A 0/1 row whose single one stands at position `l` picks entry `l` out of a row of 64 numbers. -/
theorem onehot_dot (l : BitVec 32) (hl : l.toNat < 64) (w : Fin 64 → EReal) :
    ∑ r : Fin 64, (if l = BitVec.ofNat 32 r.val then (1 : EReal) else 0) * w r = w ⟨l.toNat, hl⟩ := by
  rw [Finset.sum_eq_single (⟨l.toNat, hl⟩ : Fin 64)]
  · rw [if_pos (by simp), one_mul]
  · intro r _ hr
    rw [if_neg, zero_mul]
    intro h
    apply hr
    apply Fin.ext
    have : l.toNat = r.val := by
      rw [h, BitVec.toNat_ofNat]
      have := r.isLt
      omega
    exact this.symm
  · intro h; exact absurd (Finset.mem_univ _) h

/-- The compared bit, widened and converted, is the number 1 where the two words agree and 0 where they do not. -/
theorem eq_bit_real (a b : BitVec 32) :
    (FloatOps.sitofp (F := Ideal) .f32 ((IntOp.cmpi .eq a b).setWidth 32) : EReal) = if a = b then 1 else 0 := by
  by_cases h : a = b
  · rw [if_pos h, StableHlo.Predicate.cmpi_eq_iff.mpr h]
    show (((1#1 : BitVec 1).setWidth 32).toInt : ℝ) = (1 : EReal)
    norm_num
  · rw [if_neg h, eq_zero_of_ne_one (fun h1 => h (StableHlo.Predicate.cmpi_eq_iff.mp h1))]
    show (((0#1 : BitVec 1).setWidth 32).toInt : ℝ) = (0 : EReal)
    norm_num

/-- The 0/1 matrix of one tree, as the body builds it from the tree's row of leaves: a [25, 1, 1024] row viewed
    [25, 1024], then [25, 1024, 1], repeated along 64 positions, compared with the position, the bit widened and
    converted. -/
def onehot {F : FTy → Type} [FloatOps F] (v0 : IVec S25x1024x64 32) (lv : Vec F S25x1x1024 .i32) : FVec F S25x1024x64 .bf16 :=
  truncf .bf16 (sitofp .f32 (extui 32 (cmpi .eq
    (broadcastTo S25x1024x64 (shapeCast S25x1024x1 (shapeCast S25x1024 lv shapeCasts_S25x1x1024_S25x1024 : IVec S25x1024 32)
      shapeCasts_S25x1024_S25x1024x1 : IVec S25x1024x1 32) broadcasts_S25x1024x1_S25x1024x64) v0) natLt_1_32)) bitsLt_bf16_f32

/-- At sample `b` of split `s` and position `r`, the 0/1 matrix holds 1 exactly where the leaf is `r`. -/
theorem onehot_apply (lv : Vec Ideal S25x1x1024 .i32) (s : Fin 25) (b : Fin 1024) (r : Fin 64) :
    onehot (F := Ideal) (iota .tc S25x1024x64 32 [2] iota_S25x1024x64_d2_w32) lv (ix3 s b r)
      = if (lv (ix3 s 0 b) : BitVec 32) = BitVec.ofNat 32 r.val then (1 : EReal) else 0 := by
  unfold onehot
  rw [truncf_apply, sitofp_apply, extui_apply]
  show FloatOps.sitofp (F := Ideal) .f32 ((IntOp.cmpi .eq _ _).setWidth 32) = _
  rw [eq_bit_real, iota_single_apply,
    broadcastTo_apply _ broadcasts_S25x1024x1_S25x1024x64 (ix3 s b r) (ix3 s b 0) (by
      intro a; match a with | ⟨0, _⟩ => rfl | ⟨1, _⟩ => rfl | ⟨2, _⟩ => rfl),
    shapeCast_apply _ shapeCasts_S25x1024_S25x1024x1 (ix3 s b 0) (ix2 s b) (by
      rw [Shape.rowMajor_val_two, Shape.rowMajor_val_three]; show s.val * 1024 + b.val = (s.val * 1024 + b.val) * 1 + 0; omega),
    shapeCast_apply _ shapeCasts_S25x1x1024_S25x1024 (ix2 s b) (ix3 s 0 b) (by
      rw [Shape.rowMajor_val_two, Shape.rowMajor_val_three]; show (s.val * 1 + 0) * 1024 + b.val = s.val * 1024 + b.val; omega)]

/-! The batched product `[25, 1024, 64] × [25, 64, 32] → [25, 1024, 32]`: the split is the batch axis of both operands, the
64 positions are contracted. At result entry `(s, b, e)` and position `r` the operands are read at `(s, b, r)` and `(s, r, e)`. -/

theorem lhs_split (j : S25x1024x32.Idx) (k : dot_S25x1024x64_S25x64x32_S25x1024x32_2_1_1_2_0_0.contr.Idx) :
    (dot_S25x1024x64_S25x64x32_S25x1024x32_2_1_1_2_0_0.lhsIdx j k 0).val = (j 0).val := by
  simp [DotDims.lhsIdx, dot_S25x1024x64_S25x64x32_S25x1024x32_2_1_1_2_0_0]
  rfl
theorem lhs_sample (j : S25x1024x32.Idx) (k : dot_S25x1024x64_S25x64x32_S25x1024x32_2_1_1_2_0_0.contr.Idx) :
    (dot_S25x1024x64_S25x64x32_S25x1024x32_2_1_1_2_0_0.lhsIdx j k 1).val = (j 1).val := by
  simp [DotDims.lhsIdx, dot_S25x1024x64_S25x64x32_S25x1024x32_2_1_1_2_0_0]
  rfl
theorem rhs_split (j : S25x1024x32.Idx) (k : dot_S25x1024x64_S25x64x32_S25x1024x32_2_1_1_2_0_0.contr.Idx) :
    (dot_S25x1024x64_S25x64x32_S25x1024x32_2_1_1_2_0_0.rhsIdx j k 0).val = (j 0).val := by
  simp [DotDims.rhsIdx, dot_S25x1024x64_S25x64x32_S25x1024x32_2_1_1_2_0_0]
  rfl
theorem rhs_coord (j : S25x1024x32.Idx) (k : dot_S25x1024x64_S25x64x32_S25x1024x32_2_1_1_2_0_0.contr.Idx) :
    (dot_S25x1024x64_S25x64x32_S25x1024x32_2_1_1_2_0_0.rhsIdx j k 2).val = (j 2).val := by
  simp [DotDims.rhsIdx, dot_S25x1024x64_S25x64x32_S25x1024x32_2_1_1_2_0_0]
  rfl

/-- ONE TREE'S UPDATE of the output block, at entry `(s, b, e)`: what was there plus the table row the leaf selects —
    the product of the 0/1 row with the tree's 64 table rows is the one row where the 1 stands. -/
theorem step_apply (lv : Vec Ideal S25x1x1024 .i32) (tab : Vec Ideal S25x64x32 .bf16) (acc : Vec Ideal S25x1024x32 .f32)
    (s : Fin 25) (b : Fin 1024) (e : Fin 32) (hl : (lv (ix3 s 0 b) : BitVec 32).toNat < 64) :
    k0_pay2 (F := Ideal) (iota .tc S25x1024x64 32 [2] iota_S25x1024x64_d2_w32) lv tab acc (ix3 s b e)
      = (acc (ix3 s b e) : EReal) + tab (ix3 s ⟨(lv (ix3 s 0 b) : BitVec 32).toNat, hl⟩ e) := by
  have hpay : k0_pay2 (F := Ideal) (iota .tc S25x1024x64 32 [2] iota_S25x1024x64_d2_w32) lv tab acc
      = addf (shapeCast S25x1024x32 acc shapeCasts_S25x1024x32_S25x1024x32)
          (matmul dot_S25x1024x64_S25x64x32_S25x1024x32_2_1_1_2_0_0 none
            (onehot (iota .tc S25x1024x64 32 [2] iota_S25x1024x64_d2_w32) lv)
            (shapeCast S25x64x32 tab shapeCasts_S25x64x32_S25x64x32) (constant S25x1024x32 .f32 0x00000000#32)) := rfl
  rw [hpay, addf_apply, shapeCast_self, shapeCast_self,
    show matmul dot_S25x1024x64_S25x64x32_S25x1024x32_2_1_1_2_0_0 none
        (onehot (F := Ideal) (iota .tc S25x1024x64 32 [2] iota_S25x1024x64_d2_w32) lv) tab (constant S25x1024x32 .f32 0x00000000#32) (ix3 s b e)
      = _ from Ideal.matmul_constant_zero_apply dot_S25x1024x64_S25x64x32_S25x1024x32_2_1_1_2_0_0 none _ tab (ix3 s b e),
    ← Equiv.sum_comp (contrEquiv1 dot_S25x1024x64_S25x64x32_S25x1024x32_2_1_1_2_0_0 64 rfl rfl).symm,
    ← onehot_dot (lv (ix3 s 0 b)) hl (fun r => (tab (ix3 s r e) : EReal))]
  refine congrArg ((acc (ix3 s b e) : EReal) + ·) (Finset.sum_congr rfl fun r _ => ?_)
  have hk := contrEquiv1_symm_val dot_S25x1024x64_S25x64x32_S25x1024x32_2_1_1_2_0_0 64 rfl rfl r
  have hlhs : dot_S25x1024x64_S25x64x32_S25x1024x32_2_1_1_2_0_0.lhsIdx (ix3 s b e)
      ((contrEquiv1 dot_S25x1024x64_S25x64x32_S25x1024x32_2_1_1_2_0_0 64 rfl rfl).symm r) = ix3 s b r := by
    funext a; apply Fin.ext
    match a with
    | ⟨0, _⟩ => exact lhs_split _ _
    | ⟨1, _⟩ => exact lhs_sample _ _
    | ⟨2, _⟩ => exact (DotDims.lhsIdx_val_of_single (cl := 2) _ rfl _ _).trans hk
  have hrhs : dot_S25x1024x64_S25x64x32_S25x1024x32_2_1_1_2_0_0.rhsIdx (ix3 s b e)
      ((contrEquiv1 dot_S25x1024x64_S25x64x32_S25x1024x32_2_1_1_2_0_0 64 rfl rfl).symm r) = ix3 s r e := by
    funext a; apply Fin.ext
    match a with
    | ⟨0, _⟩ => exact rhs_split _ _
    | ⟨1, _⟩ => exact (DotDims.rhsIdx_val_of_single (cr := 1) _ rfl _ _).trans hk
    | ⟨2, _⟩ => exact rhs_coord _ _
  rw [hlhs, hrhs, onehot_apply]

/-! ## The 20 updates are one step

The body is printed in parts of 60 statements, so some trees' updates are cut in two or three pieces; put together again
each is the same function of the tree's leaf row, its 64 table rows and the block so far. -/

theorem pay4_eq (lv : Vec Ideal S25x1x1024 .i32) (tab : Vec Ideal S25x64x32 .bf16) (acc : Vec Ideal S25x1024x32 .f32) :
    k0_pay4 (F := Ideal) lv tab acc = k0_pay2 (iota .tc S25x1024x64 32 [2] iota_S25x1024x64_d2_w32) lv tab acc := rfl
theorem pay8_eq (lv : Vec Ideal S25x1x1024 .i32) (tab : Vec Ideal S25x64x32 .bf16) (acc : Vec Ideal S25x1024x32 .f32) :
    k0_pay8 (F := Ideal) (k0_pay5 lv) (k0_pay6 tab) (k0_pay7 acc) = k0_pay2 (iota .tc S25x1024x64 32 [2] iota_S25x1024x64_d2_w32) lv tab acc := rfl
theorem pay12_eq (v0 : IVec S25x1024x64 32) (lv : Vec Ideal S25x1x1024 .i32) (tab : Vec Ideal S25x64x32 .bf16) (acc : Vec Ideal S25x1024x32 .f32) :
    k0_pay12 (F := Ideal) (k0_pay10 acc) (k0_pay11 v0 lv tab) = k0_pay2 v0 lv tab acc := rfl
theorem pay26_eq (v0 : IVec S25x1024x64 32) (lv : Vec Ideal S25x1x1024 .i32) (tab : Vec Ideal S25x64x32 .bf16) (acc : Vec Ideal S25x1024x32 .f32) :
    k0_pay26 (F := Ideal) v0 (k0_pay25 lv) tab acc = k0_pay2 v0 lv tab acc := rfl
theorem pay1_eq (v0 : IVec S25x1024x64 32) (lv : Vec Ideal S25x1x1024 .i32) (tab : Vec Ideal S25x64x32 .bf16) (acc : Vec Ideal S25x1024x32 .f32) :
    k0_pay1 (F := Ideal) (k0_pay28 v0 lv) tab acc = k0_pay2 v0 lv tab acc := rfl
theorem pay9_eq : @k0_pay9 Ideal _ = @k0_pay2 Ideal _ := rfl
theorem pay13_eq : @k0_pay13 Ideal _ = @k0_pay2 Ideal _ := rfl
theorem pay14_eq : @k0_pay14 Ideal _ = @k0_pay2 Ideal _ := rfl
theorem pay15_eq : @k0_pay15 Ideal _ = @k0_pay2 Ideal _ := rfl
theorem pay16_eq : @k0_pay16 Ideal _ = @k0_pay2 Ideal _ := rfl
theorem pay17_eq : @k0_pay17 Ideal _ = @k0_pay2 Ideal _ := rfl
theorem pay18_eq : @k0_pay18 Ideal _ = @k0_pay2 Ideal _ := rfl
theorem pay19_eq : @k0_pay19 Ideal _ = @k0_pay2 Ideal _ := rfl
theorem pay20_eq : @k0_pay20 Ideal _ = @k0_pay2 Ideal _ := rfl
theorem pay21_eq : @k0_pay21 Ideal _ = @k0_pay2 Ideal _ := rfl
theorem pay22_eq : @k0_pay22 Ideal _ = @k0_pay2 Ideal _ := rfl
theorem pay23_eq : @k0_pay23 Ideal _ = @k0_pay2 Ideal _ := rfl
theorem pay24_eq : @k0_pay24 Ideal _ = @k0_pay2 Ideal _ := rfl
theorem pay27_eq : @k0_pay27 Ideal _ = @k0_pay2 Ideal _ := rfl

/-- The block the body starts from is zero. -/
theorem zero_block (j : S25x1024x32.Idx) : (k0_pay3 (F := Ideal) j : EReal) = 0 := by
  show Ideal.ofBits .f32 0x00000000#32 = 0
  exact Ideal.ofBits_zero_f32

/-- Tree `k`'s update with its operands as the body loads them — the leaf row `k` of the leaf block and rows
    `64 k … 64 k + 63` of the weight block —: entry `(s, b, e)` gains the weight block's row `64 k + leaf`, the leaf read at
    `(s, k, b)`. -/
theorem tree_term (x0 : Vec Ideal S25x20x1024 .i32) (x1 : Vec Ideal S25x1280x32 .bf16) (k : Nat) (hk : k < 20) (o : Nat) (ho : o = 64 * k)
    (inb0 : ∀ a, (![0, k, 0] : Fin S25x20x1024.rank → Nat) a + S25x1x1024.size a ≤ S25x20x1024.size a)
    (inb1 : ∀ a, (![0, o, 0] : Fin S25x1280x32.rank → Nat) a + S25x64x32.size a ≤ S25x1280x32.size a)
    (acc : Vec Ideal S25x1024x32 .f32) (s : Fin 25) (b : Fin 1024) (e : Fin 32)
    (hx : (x0 (ix3 s ⟨k, hk⟩ b) : BitVec 32).toNat < 64) :
    k0_pay2 (F := Ideal) (iota .tc S25x1024x64 32 [2] iota_S25x1024x64_d2_w32)
        (View.ld x0 (Rect.unit (s := S25x20x1024) ![0, k, 0] S25x1x1024.size inb0))
        (View.ld x1 (Rect.unit (s := S25x1280x32) ![0, o, 0] S25x64x32.size inb1)) acc (ix3 s b e)
      = (acc (ix3 s b e) : EReal) + x1 (ix3 s (row ⟨k, hk⟩ (x0 (ix3 s ⟨k, hk⟩ b))) e) := by
  have hrow : View.ld x0 (Rect.unit (s := S25x20x1024) ![0, k, 0] S25x1x1024.size inb0) (ix3 s 0 b) = x0 (ix3 s ⟨k, hk⟩ b) :=
    congrArg x0 (funext fun a => Fin.ext (by
      match a with
      | ⟨0, _⟩ => show 0 + 1 * s.val = s.val; omega
      | ⟨1, _⟩ => show k + 1 * 0 = k; omega
      | ⟨2, _⟩ => show 0 + 1 * b.val = b.val; omega))
  have hl : (View.ld x0 (Rect.unit (s := S25x20x1024) ![0, k, 0] S25x1x1024.size inb0) (ix3 s 0 b) : BitVec 32).toNat < 64 := by
    rw [hrow]; exact hx
  rw [step_apply _ _ acc s b e hl]
  refine congrArg ((acc (ix3 s b e) : EReal) + ·) (congrArg x1 (funext fun a => Fin.ext ?_))
  match a with
  | ⟨0, _⟩ => show 0 + 1 * s.val = s.val; omega
  | ⟨1, _⟩ =>
    show o + 1 * (View.ld x0 (Rect.unit (s := S25x20x1024) ![0, k, 0] S25x1x1024.size inb0) (ix3 s 0 b) : BitVec 32).toNat
      = (row ⟨k, hk⟩ (x0 (ix3 s ⟨k, hk⟩ b))).val
    rw [hrow, row_val _ _ hx, ho]; show 64 * k + 1 * _ = 64 * k + _; omega
  | ⟨2, _⟩ => show 0 + 1 * e.val = e.val; omega

/-- The block read back whole, after a whole store of `w` on top of any earlier stores, is `w`. -/
theorem readback (v : View sig .tc .vmem S25x1024x32 .f32) (w : Vec Ideal S25x1024x32 .f32)
    (L : List (View.Piece (Elt Ideal) S25x1024x32 .f32)) :
    v.readCov ((⟨Rect.unit (s := S25x1024x32) ![0, 0, 0] S25x1024x32.size inb_S25x1024x32_S25x1024x32_0_0_0, w⟩ : View.Piece (Elt Ideal) S25x1024x32 .f32) :: L)
      (Rect.unit (s := S25x1024x32) ![0, 0, 0] S25x1024x32.size inb_S25x1024x32_S25x1024x32_0_0_0).toLoadRect = w := by
  have hz : (![0, 0, 0] : Fin S25x1024x32.rank → Nat) = fun _ => 0 := by funext a; fin_cases a <;> rfl
  rw [View.readCov_eq_canon_ld _ _ _ (fun y => ⟨_, List.mem_cons_self .., by
    rw [Rect.mem_set_unit]; intro a; exact ⟨by rw [hz]; exact Nat.zero_le _, by rw [hz]; simpa using (y a).isLt⟩⟩),
    View.canon_cons_unit_zero (S := S25x1024x32) hz, View.ld_unit_zero (S := S25x1024x32) hz]

/-- The same under a sum: to show `(block read back) j + rest = rhs` it is enough to show it of the store's payload. -/
theorem peel (v : View sig .tc .vmem S25x1024x32 .f32) (w : Vec Ideal S25x1024x32 .f32)
    (L : List (View.Piece (Elt Ideal) S25x1024x32 .f32)) (j : S25x1024x32.Idx) (rest rhs : EReal)
    (h : (w j : EReal) + rest = rhs) :
    (v.readCov ((⟨Rect.unit (s := S25x1024x32) ![0, 0, 0] S25x1024x32.size inb_S25x1024x32_S25x1024x32_0_0_0, w⟩ : View.Piece (Elt Ideal) S25x1024x32 .f32) :: L)
      (Rect.unit (s := S25x1024x32) ![0, 0, 0] S25x1024x32.size inb_S25x1024x32_S25x1024x32_0_0_0).toLoadRect j : EReal) + rest = rhs := by
  rw [readback]; exact h

/-- Tree `k`'s update under a sum: its term joins the terms already collected. -/
theorem tree_peel (x0 : Vec Ideal S25x20x1024 .i32) (x1 : Vec Ideal S25x1280x32 .bf16) (k : Nat) (hk : k < 20) (o : Nat) (ho : o = 64 * k)
    (inb0 : ∀ a, (![0, k, 0] : Fin S25x20x1024.rank → Nat) a + S25x1x1024.size a ≤ S25x20x1024.size a)
    (inb1 : ∀ a, (![0, o, 0] : Fin S25x1280x32.rank → Nat) a + S25x64x32.size a ≤ S25x1280x32.size a)
    (acc : Vec Ideal S25x1024x32 .f32) (s : Fin 25) (b : Fin 1024) (e : Fin 32)
    (hx : (x0 (ix3 s ⟨k, hk⟩ b) : BitVec 32).toNat < 64) (rest rhs : EReal)
    (h : (acc (ix3 s b e) : EReal) + ((x1 (ix3 s (row ⟨k, hk⟩ (x0 (ix3 s ⟨k, hk⟩ b))) e) : EReal) + rest) = rhs) :
    (k0_pay2 (F := Ideal) (iota .tc S25x1024x64 32 [2] iota_S25x1024x64_d2_w32)
        (View.ld x0 (Rect.unit (s := S25x20x1024) ![0, k, 0] S25x1x1024.size inb0))
        (View.ld x1 (Rect.unit (s := S25x1280x32) ![0, o, 0] S25x64x32.size inb1)) acc (ix3 s b e) : EReal) + rest = rhs := by
  rw [tree_term x0 x1 k hk o ho inb0 inb1 acc s b e hx, add_assoc]; exact h

open Lean Elab Tactic Meta in
/-- One round of unfolding, in the goal, the names the body's run gave to what it loaded and stored. -/
elab "unfold_run_names_once" : tactic => do
  let g ← getMainGoal
  let t ← instantiateMVars (← g.getType)
  let t' ← Meta.deltaExpand t fun n => n.components.dropLast.any (· == `sl)
  replaceMainGoal [← g.replaceTargetDefEq t']

/-- Entry `(s, b, e)` of the output block: the sum over the 20 trees of the weight block's row `64 t + leaf`, the leaf
    read at `(s, t, b)` of the leaf block. -/
theorem block_apply (c : Dev nD) (i : grid0.Coords) (arg2 : Memref sig .tc .vmem S25x20x1024 .i32) (harg2 : arg2.IsWhole)
    (arg3 : Memref sig .tc .vmem S25x1280x32 .bf16) (harg3 : arg3.IsWhole) (arg4 : Memref sig .tc .vmem S25x1024x32 .f32) (harg4 : arg4.IsWhole)
    (x0 : Vec Ideal S25x20x1024 .i32) (x1 : Vec Ideal S25x1280x32 .bf16)
    (s : Fin 25) (b : Fin 1024) (e : Fin 32) (hx : ∀ t : Fin 20, (x0 (ix3 s t b) : BitVec 32).toNat < 64) :
    out0_A_2 (F := Ideal) c i arg2 harg2 arg3 harg3 arg4 harg4 x0 x1 (ix3 s b e)
      = ∑ t : Fin 20, (x1 (ix3 s (row t (x0 (ix3 s t b))) e) : EReal) := by
  have hz : (![0, 0, 0] : Fin S25x1024x32.rank → Nat) = fun _ => 0 := by funext a; fin_cases a <;> rfl
  -- the block after the run is what the last of its 21 whole stores wrote: tree 19's update of the block read back
  unfold out0_A_2
  rw [View.read_writes_eq_canon _ _ _ (cover0_A_2 c i arg2 harg2 arg3 harg3 arg4 harg4 x0 x1)]
  unfold kernelRun0_A
  dsimp only
  rw [View.canon_cons_unit_zero (S := S25x1024x32) hz]
  refine (add_zero _).symm.trans ?_
  unfold_run_names_once
  simp only [View.readAt_eq_ld, harg2.read_unread, harg3.read_unread,
    pay1_eq, pay4_eq, pay8_eq, pay12_eq, pay26_eq, pay9_eq, pay13_eq, pay14_eq, pay15_eq, pay16_eq, pay17_eq, pay18_eq, pay19_eq, pay20_eq, pay21_eq, pay22_eq, pay23_eq, pay24_eq, pay27_eq]
  -- tree 19 down to tree 0: each update adds its term, and the block it read back is the update before it
  refine tree_peel x0 x1 19 (by decide) 1216 rfl _ _ _ s b e (hx ⟨19, by decide⟩) _ _ ?_
  refine peel _ _ _ _ _ _ ?_
  refine tree_peel x0 x1 18 (by decide) 1152 rfl _ _ _ s b e (hx ⟨18, by decide⟩) _ _ ?_
  refine peel _ _ _ _ _ _ ?_
  refine tree_peel x0 x1 17 (by decide) 1088 rfl _ _ _ s b e (hx ⟨17, by decide⟩) _ _ ?_
  refine peel _ _ _ _ _ _ ?_
  refine tree_peel x0 x1 16 (by decide) 1024 rfl _ _ _ s b e (hx ⟨16, by decide⟩) _ _ ?_
  refine peel _ _ _ _ _ _ ?_
  refine tree_peel x0 x1 15 (by decide) 960 rfl _ _ _ s b e (hx ⟨15, by decide⟩) _ _ ?_
  refine peel _ _ _ _ _ _ ?_
  refine tree_peel x0 x1 14 (by decide) 896 rfl _ _ _ s b e (hx ⟨14, by decide⟩) _ _ ?_
  refine peel _ _ _ _ _ _ ?_
  refine tree_peel x0 x1 13 (by decide) 832 rfl _ _ _ s b e (hx ⟨13, by decide⟩) _ _ ?_
  refine peel _ _ _ _ _ _ ?_
  refine tree_peel x0 x1 12 (by decide) 768 rfl _ _ _ s b e (hx ⟨12, by decide⟩) _ _ ?_
  refine peel _ _ _ _ _ _ ?_
  refine tree_peel x0 x1 11 (by decide) 704 rfl _ _ _ s b e (hx ⟨11, by decide⟩) _ _ ?_
  refine peel _ _ _ _ _ _ ?_
  refine tree_peel x0 x1 10 (by decide) 640 rfl _ _ _ s b e (hx ⟨10, by decide⟩) _ _ ?_
  refine peel _ _ _ _ _ _ ?_
  refine tree_peel x0 x1 9 (by decide) 576 rfl _ _ _ s b e (hx ⟨9, by decide⟩) _ _ ?_
  refine peel _ _ _ _ _ _ ?_
  refine tree_peel x0 x1 8 (by decide) 512 rfl _ _ _ s b e (hx ⟨8, by decide⟩) _ _ ?_
  refine peel _ _ _ _ _ _ ?_
  refine tree_peel x0 x1 7 (by decide) 448 rfl _ _ _ s b e (hx ⟨7, by decide⟩) _ _ ?_
  refine peel _ _ _ _ _ _ ?_
  refine tree_peel x0 x1 6 (by decide) 384 rfl _ _ _ s b e (hx ⟨6, by decide⟩) _ _ ?_
  refine peel _ _ _ _ _ _ ?_
  refine tree_peel x0 x1 5 (by decide) 320 rfl _ _ _ s b e (hx ⟨5, by decide⟩) _ _ ?_
  refine peel _ _ _ _ _ _ ?_
  refine tree_peel x0 x1 4 (by decide) 256 rfl _ _ _ s b e (hx ⟨4, by decide⟩) _ _ ?_
  refine peel _ _ _ _ _ _ ?_
  refine tree_peel x0 x1 3 (by decide) 192 rfl _ _ _ s b e (hx ⟨3, by decide⟩) _ _ ?_
  refine peel _ _ _ _ _ _ ?_
  refine tree_peel x0 x1 2 (by decide) 128 rfl _ _ _ s b e (hx ⟨2, by decide⟩) _ _ ?_
  refine peel _ _ _ _ _ _ ?_
  refine tree_peel x0 x1 1 (by decide) 64 rfl _ _ _ s b e (hx ⟨1, by decide⟩) _ _ ?_
  refine peel _ _ _ _ _ _ ?_
  refine tree_peel x0 x1 0 (by decide) 0 rfl _ _ _ s b e (hx ⟨0, by decide⟩) _ _ ?_
  -- what tree 0 read back is the zero block
  refine peel _ _ _ _ _ _ ?_
  rw [zero_block, zero_add]
  simp only [Fin.sum_univ_succ, Fin.sum_univ_zero]
  rfl

end Cert.LeafEmbed

end
-- ==== Proof.RegionValue.lean ====
/-
  The array the kernel's region writes, `[100, 4096, 32]`, is the embedding laid out split-major (`R`), where every leaf
  lies in `[0, 64)`.

  The region reads two arrays. The first is the leaves regrouped as `[4096, 100, 20]` and turned to `[100, 20, 4096]`, so
  that its entry `(s, t, b)` is the leaf of sample `b` in tree `20 s + t`; the second is the table, unchanged over the
  extended reals. The grid is 4 × 4: point `(i₀, i₁)` works on the splits `25 i₀ … 25 i₀ + 24` and the samples
  `1024 i₁ … 1024 i₁ + 1023`; it reads block `(i₀, 0, i₁)` of the leaves and block `(i₀, 0, 0)` of the table, and writes
  block `(i₀, i₁, 0)` of the output. One entry `(s', b', e)` of what the body leaves is the sum over the 20 trees of
  coordinate `e` of the table-block row that the leaf-block entry `(s', t, b')` selects (`block_apply`); carried from block
  coordinates to array coordinates, that is `Rat` at split `25 i₀ + s'`, sample `1024 i₁ + b'`, coordinate `e`. The sixteen
  output blocks tile the array, so after the last point the array is `R` at every index.
-/
import proofs.«403381_j56607668961387_2_alg».proof.Proof.BlockValue
import Idealize.ShloMosaic.Lib.StableHlo.Run

noncomputable section

open scoped BigOperators

namespace Cert.LeafEmbed

open Idealize.ShloMosaic Idealize.ShloMosaic.ValueIdx Idealize.SL.Sem Cert.KernelIdeal Cert.KernelIdeal.Gen

section Blocks

variable (m : (ℓ : Loc nD τ sig) → Buf (Elt Ideal) ℓ)

/-! ## The two arrays the region reads, as functions of the arguments -/

/-- The region's first array is the leaves regrouped `[4096, 100, 20]` and then turned split-major, `[100, 20, 4096]`. -/
theorem leaves_term (c : Dev nD) :
    (V m c main_v1 : S100x20x4096.Idx → BitVec 32)
      = transpose S100x20x4096 [1, 2, 0]
          (shapeCast S4096x100x20 (m ((c.tc : Thread nD τ).loc main_arg0)) shapeCasts_S4096x2000_S4096x100x20)
          transposes_S4096x100x20_S100x20x4096_1_2_0 := by
  show StableHlo.after hostOps0 (fun b => m (c, b)) (Proc.devRef .tc main_v1) = _
  after_results
  rfl

/-- The region's second array is the table itself: over the extended reals a change of float format is the identity. -/
theorem table_term (c : Dev nD) :
    (V m c main_v2 : S100x1280x32.Idx → EReal) = m ((c.tc : Thread nD τ).loc main_arg1) := by
  show StableHlo.after hostOps0 (fun b => m (c, b)) (Proc.devRef .tc main_v2) = _
  after_results
  rfl

/-- The leaves as the region finds them, `[100, 20, 4096]`: split, tree of the split, sample. -/
abbrev leafArr (c : Dev nD) : IVec S100x20x4096 32 := V m c main_v1
/-- The table as the region finds it, `[100, 1280, 32]`: split, row, coordinate. -/
abbrev tabArr (c : Dev nD) : S100x1280x32.Idx → EReal := V m c main_v2

/-- Entry `(s, t, b)` of the region's leaf array is the leaf of sample `b` in tree `20 s + t`: the transposition sends
    `(s, t, b)` to `(b, s, t)`, whose row-major position `(100 b + s) · 20 + t` is that of `(b, 20 s + t)` in `[4096, 2000]`. -/
theorem leafArr_apply (c : Dev nD) (s : Fin 100) (t : Fin 20) (b : Fin 4096) :
    leafArr m c (ix3 s t b) = (m ((c.tc : Thread nD τ).loc main_arg0) : IVec S4096x2000 32) (ix2 b (tree s t)) := by
  show (V m c main_v1 : S100x20x4096.Idx → BitVec 32) (ix3 s t b) = _
  rw [leaves_term]
  refine (transpose_apply [1, 2, 0] _ transposes_S4096x100x20_S100x20x4096_1_2_0 (ix3 s t b) (ix3 b s t) (fun a => ?_)).trans ?_
  · match a with
    | ⟨0, _⟩ => rfl
    | ⟨1, _⟩ => rfl
    | ⟨2, _⟩ => rfl
  · refine shapeCast_apply _ shapeCasts_S4096x2000_S4096x100x20 (ix3 b s t) (ix2 b (tree s t)) ?_
    rw [Shape.rowMajor_val_two, Shape.rowMajor_val_three]
    show b.val * 2000 + (20 * s.val + t.val) = (b.val * 100 + s.val) * 20 + t.val
    omega

/-- Every entry of the region's table is the argument's. -/
theorem tabArr_apply (c : Dev nD) (i : S100x1280x32.Idx) :
    tabArr m c i = (m ((c.tc : Thread nD τ).loc main_arg1) : S100x1280x32.Idx → EReal) i :=
  congrFun (table_term m c) i

/-! ## Where each grid point's blocks lie -/

/-- The grid is 4 × 4 and its point `(i₀, i₁)` writes output block `(i₀, i₁, 0)`. There the leaf block is block
    `(i₀, 0, i₁)` of the leaf array and the table block is block `(i₀, 0, 0)` of the table: the splits move with `i₀`, the
    samples with `i₁`, and the trees, the table's rows and the 32 coordinates are never cut. -/
theorem idx_facts : ∀ t : Fin cfg0.N,
    win0_0.index t (0 : Fin 3) = win0_2.index t (0 : Fin 3) ∧ win0_0.index t (1 : Fin 3) = 0
      ∧ win0_0.index t (2 : Fin 3) = win0_2.index t (1 : Fin 3)
      ∧ win0_1.index t (0 : Fin 3) = win0_2.index t (0 : Fin 3) ∧ win0_1.index t (1 : Fin 3) = 0 ∧ win0_1.index t (2 : Fin 3) = 0
      ∧ win0_2.index t (0 : Fin 3) < 4 ∧ win0_2.index t (1 : Fin 3) < 4 ∧ win0_2.index t (2 : Fin 3) = 0 :=
  (by decide +kernel : ∀ t : Fin grid0.N, _)

/-- Every one of the 4 × 4 output blocks is some grid point's. -/
theorem idx_onto : ∀ (q0 q1 : Fin 4), ∃ t : Fin cfg0.N, win0_2.index t (0 : Fin 3) = q0.val ∧ win0_2.index t (1 : Fin 3) = q1.val :=
  (by decide +kernel : ∀ (q0 q1 : Fin 4), ∃ t : Fin grid0.N, win0_2.index t (0 : Fin 3) = q0.val ∧ win0_2.index t (1 : Fin 3) = q1.val)

/-- The leaf block the body reads at grid point `t`, `[25, 20, 1024]`. -/
abbrev leafBlk (c : Dev nD) (t : Fin cfg0.N) : Vec Ideal S25x20x1024 .i32 := iblk m c 0 t
/-- The table block the body reads at grid point `t`, `[25, 1280, 32]`. -/
abbrev tabBlk (c : Dev nD) (t : Fin cfg0.N) : Vec Ideal S25x1280x32 .bf16 := iblk m c 1 t

/-- At the point that writes output block `(i₀, i₁, 0)`, entry `(s', t', b')` of the leaf block is entry
    `(25 i₀ + s', t', 1024 i₁ + b')` of the leaf array. -/
theorem leafBlk_apply (c : Dev nD) (t : Fin cfg0.N) (s' : Fin 25) (t' : Fin 20) (b' : Fin 1024) (s : Fin 100) (b : Fin 4096)
    (hs : s.val = win0_2.index t (0 : Fin 3) * 25 + s'.val) (hb : b.val = win0_2.index t (1 : Fin 3) * 1024 + b'.val) :
    leafBlk m c t (ix3 s' t' b') = leafArr m c (ix3 s t' b) := by
  obtain ⟨e0, e1, e2, -⟩ := idx_facts t
  show (iblk m c 0 t : Vec Ideal S25x20x1024 .i32) (ix3 s' t' b') = _
  unfold iblk
  rw [View.read_apply]
  show V m c main_v1 _ = V m c main_v1 _
  congr 1
  funext a
  apply Fin.ext
  match a with
  | ⟨0, _⟩ => show win0_0.index t (0 : Fin 3) * 25 + 1 * s'.val = s.val; omega
  | ⟨1, _⟩ => show win0_0.index t (1 : Fin 3) * 20 + 1 * t'.val = t'.val; omega
  | ⟨2, _⟩ => show win0_0.index t (2 : Fin 3) * 1024 + 1 * b'.val = b.val; omega

/-- At the same point, entry `(s', r, e)` of the table block is entry `(25 i₀ + s', r, e)` of the table. -/
theorem tabBlk_apply (c : Dev nD) (t : Fin cfg0.N) (s' : Fin 25) (r : Fin 1280) (e : Fin 32) (s : Fin 100)
    (hs : s.val = win0_2.index t (0 : Fin 3) * 25 + s'.val) :
    tabBlk m c t (ix3 s' r e) = tabArr m c (ix3 s r e) := by
  obtain ⟨-, -, -, e0, e1, e2, -⟩ := idx_facts t
  show (iblk m c 1 t : Vec Ideal S25x1280x32 .bf16) (ix3 s' r e) = _
  unfold iblk
  rw [View.read_apply]
  show V m c main_v2 _ = V m c main_v2 _
  congr 1
  funext a
  apply Fin.ext
  match a with
  | ⟨0, _⟩ => show win0_1.index t (0 : Fin 3) * 25 + 1 * s'.val = s.val; omega
  | ⟨1, _⟩ => show win0_1.index t (1 : Fin 3) * 1280 + 1 * r.val = r.val; omega
  | ⟨2, _⟩ => show win0_1.index t (2 : Fin 3) * 32 + 1 * e.val = e.val; omega

/-! ## What one grid point writes back -/

/-- THE BODY'S RESULT AT A POINT, ENTRY BY ENTRY. At the point that writes output block `(i₀, i₁, 0)`, entry `(s', b', e)` of
    what the body leaves is the embedding of sample `b = 1024 i₁ + b'` for split `s = 25 i₀ + s'` at coordinate `e`: the
    body's sum over the 20 trees reads the leaf block at `(s', t, b')`, which is the leaf of sample `b` in tree `20 s + t`,
    and the table block at row `64 t + leaf` of `s'`, which is that row of split `s`'s table. -/
theorem point_apply (hL : ∀ (c : Dev nD) i, ((m ((c.tc : Thread nD τ).loc main_arg0)) i : BitVec 32).toNat < 64)
    (c : Dev nD) (t : Fin cfg0.N) (s' : Fin 25) (b' : Fin 1024) (e : Fin 32) (s : Fin 100) (b : Fin 4096)
    (hs : s.val = win0_2.index t (0 : Fin 3) * 25 + s'.val) (hb : b.val = win0_2.index t (1 : Fin 3) * 1024 + b'.val) :
    outsAt0 (F := Ideal) m c t (ix3 s' b' e)
      = Rat (m ((c.tc : Thread nD τ).loc main_arg0)) (m ((c.tc : Thread nD τ).loc main_arg1)) s b e := by
  have hleaf : ∀ t' : Fin 20, leafBlk m c t (ix3 s' t' b')
      = (m ((c.tc : Thread nD τ).loc main_arg0) : IVec S4096x2000 32) (ix2 b (tree s t')) := fun t' =>
    (leafBlk_apply m c t s' t' b' s b hs hb).trans (leafArr_apply m c s t' b)
  unfold outsAt0
  refine (block_apply c (grid0.coords t) (ms0_0 t) (hs0_0 t) (ms0_1 t) (hs0_1 t) (ms0_2 t) (hs0_2 t)
    (leafBlk m c t) (tabBlk m c t) s' b' e (fun t' => ?_)).trans ?_
  · rw [hleaf t']
    exact hL c _
  · unfold Rat
    refine Finset.sum_congr rfl (fun t' _ => ?_)
    rw [hleaf t']
    exact (tabBlk_apply m c t s' _ e s hs).trans (tabArr_apply m c _)

/-- WHAT POINT `t` WRITES BACK is block `t` of the embedding laid out split-major. -/
theorem flushed_eq (hL : ∀ (c : Dev nD) i, ((m ((c.tc : Thread nD τ).loc main_arg0)) i : BitVec 32).toNat < 64)
    (c : Dev nD) (t : Fin cfg0.N) :
    (dats m 0 c).flushed 2 t = ((cfg0.win 2).blk t).view.read (Elt Ideal)
      (R (m ((c.tc : Thread nD τ).loc main_arg0)) (m ((c.tc : Thread nD τ).loc main_arg1))) := by
  show (cfg0.win 2).cut (grid0.coords t) ((dats m 0 c).after 2 t) = _
  rw [after0_2]
  obtain ⟨-, -, -, -, -, -, l0, l1, z2⟩ := idx_facts t
  funext j
  rw [View.read_apply]
  have h0 : (j 0).val < 25 := (j 0).isLt
  have h1 : (j 1).val < 1024 := (j 1).isLt
  have h2 : (j 2).val < 32 := (j 2).isLt
  have hs : win0_2.index t (0 : Fin 3) * 25 + (j 0).val < 100 := by omega
  have hb : win0_2.index t (1 : Fin 3) * 1024 + (j 1).val < 4096 := by omega
  have hin : (cfg0.win 2).xinj (grid0.coords t) j = ix3 ⟨(j 0).val, h0⟩ ⟨(j 1).val, h1⟩ ⟨(j 2).val, h2⟩ :=
    funext fun a => match a with
      | ⟨0, _⟩ => rfl
      | ⟨1, _⟩ => rfl
      | ⟨2, _⟩ => rfl
  have hemb : ((cfg0.win 2).blk t).view.emb j
      = ix3 ⟨win0_2.index t (0 : Fin 3) * 25 + (j 0).val, hs⟩ ⟨win0_2.index t (1 : Fin 3) * 1024 + (j 1).val, hb⟩ ⟨(j 2).val, h2⟩ := by
    funext a
    apply Fin.ext
    match a with
    | ⟨0, _⟩ => show win0_2.index t (0 : Fin 3) * 25 + 1 * (j 0).val = win0_2.index t (0 : Fin 3) * 25 + (j 0).val; omega
    | ⟨1, _⟩ => show win0_2.index t (1 : Fin 3) * 1024 + 1 * (j 1).val = win0_2.index t (1 : Fin 3) * 1024 + (j 1).val; omega
    | ⟨2, _⟩ => show win0_2.index t (2 : Fin 3) * 32 + 1 * (j 2).val = (j 2).val; omega
  show outsAt0 (F := Ideal) m c t ((cfg0.win 2).xinj (grid0.coords t) j)
    = R (m ((c.tc : Thread nD τ).loc main_arg0)) (m ((c.tc : Thread nD τ).loc main_arg1)) (((cfg0.win 2).blk t).view.emb j)
  rw [hin, hemb]
  exact point_apply m hL c t _ _ _ _ _ rfl rfl

/-- An index of the output array is in point `t`'s block iff each coordinate is in the block's range on its axis. -/
theorem mem_blk (t : Fin cfg0.N) (i : S100x4096x32.Idx) :
    i ∈ ((cfg0.win 2).blk t).view.set ↔ ∀ a : Fin 3, win0_2.index t a * S25x1024x32.size a ≤ (i a).val
      ∧ (i a).val < win0_2.index t a * S25x1024x32.size a + S25x1024x32.size a := by
  show i ∈ ((View.whole main_v3).slice (win0_2.rect t)).set ↔ _
  rw [View.set_slice_whole, Rect.mem_set_unit]
  exact Iff.rfl

/-- THE BLOCKS TILE THE ARRAY: entry `(s, b, e)` lies in the block of the point that writes block `(s / 25, b / 1024, 0)`. -/
theorem covered (i : S100x4096x32.Idx) :
    ∃ t : Fin cfg0.N, (cfg0.win 2).flush t = true ∧ i ∈ ((cfg0.win 2).blk t).view.set := by
  have hi0 : (i 0).val < 100 := (i 0).isLt
  have hi1 : (i 1).val < 4096 := (i 1).isLt
  have hi2 : (i 2).val < 32 := (i 2).isLt
  obtain ⟨t, q0, q1⟩ := idx_onto ⟨(i 0).val / 25, by omega⟩ ⟨(i 1).val / 1024, by omega⟩
  have q0' : win0_2.index t (0 : Fin 3) = (i 0).val / 25 := q0
  have q1' : win0_2.index t (1 : Fin 3) = (i 1).val / 1024 := q1
  obtain ⟨-, -, -, -, -, -, -, -, z2⟩ := idx_facts t
  refine ⟨t, flush0_2 t, ?_⟩
  rw [mem_blk]
  intro a
  match a with
  | ⟨0, _⟩ => show win0_2.index t (0 : Fin 3) * 25 ≤ (i 0).val ∧ (i 0).val < win0_2.index t (0 : Fin 3) * 25 + 25; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 32 ≤ (i 2).val ∧ (i 2).val < win0_2.index t (2 : Fin 3) * 32 + 32; omega

end Blocks

/-- After the last grid point the region's output array is `R` of the two arguments. -/
theorem region_final (m : (ℓ : Loc nD τ sig) → Buf (Elt Ideal) ℓ)
    (hL : ∀ (c : Dev nD) i, ((m ((c.tc : Thread nD τ).loc main_arg0)) i : BitVec 32).toNat < 64) (c : Dev nD) :
    (dats m 0 c).arrAt 2 cfg0.N = R (m ((c.tc : Thread nD τ).loc main_arg0)) (m ((c.tc : Thread nD τ).loc main_arg1)) := by
  exact (dats m 0 c).arrAt_eq_of_cover 2 _ (fun t _ => flushed_eq m hL c t) covered

end Cert.LeafEmbed

end
-- ==== Proof.KernelValue.lean ====
/-
  The kernel's run: its result array is the embedding `G` of its two arguments, where every leaf lies in `[0, 64)`.

  The region leaves the embedding split-major: the array `[100, 4096, 32]` holds, at `(s, b, e)`, coordinate `e` of sample
  `b`'s embedding for split `s` (`R`, the module below this one). Two layout operations follow it in @main and make the
  result. The transpose `[1, 0, 2]` exchanges the first two axes, giving the sample-major `[4096, 100, 32]`; the reshape
  then lays each sample's 100 × 32 numbers out as one row of 3200, so that column `q` of the result is position
  `(q / 32, q % 32)` of that sample's `[100, 32]` slab. Hence

      result (b, q) = transposed (b, q / 32, q % 32) = R (q / 32, b, q % 32),

  and `q / 32`, `q % 32` are what the specification calls the split and the coordinate of column `q`: this is
  `G (b, q)`. Neither operation computes anything — each only moves entries — so no property of the numbers is used.

  Neither operation after the region writes an argument array, and none before it does, so both arguments end as they began.
-/
import proofs.«403381_j56607668961387_2_alg».proof.Proof.RegionValue

noncomputable section

open scoped BigOperators

namespace Cert.LeafEmbed

open Idealize.ShloMosaic Idealize.ShloMosaic.ValueIdx Idealize.SL.Sem Cert.KernelIdeal Cert.KernelIdeal.Gen

/-! ## The two layout operations, read at an index -/

/-- Exchanging the first two axes: the transpose `[1, 0, 2]` of `X : [100, 4096, 32]` at sample `b`, split `s`,
    coordinate `e` is `X (s, b, e)`. -/
theorem swap_apply {α : Type} (X : S100x4096x32.Idx → α) (b : Fin 4096) (s : Fin 100) (e : Fin 32) :
    transpose S4096x100x32 [1, 0, 2] X transposes_S100x4096x32_S4096x100x32_1_0_2 (ix3 b s e) = X (ix3 s b e) :=
  transpose_apply _ X _ _ _ fun a => match a with | ⟨0, _⟩ => rfl | ⟨1, _⟩ => rfl | ⟨2, _⟩ => rfl

/-- Flattening the last two axes: the reshape of `Y : [4096, 100, 32]` to `[4096, 3200]` at `(b, q)` is
    `Y (b, q / 32, q % 32)`. Both indices have row-major position `3200 b + q`, since `32 (q / 32) + q % 32 = q`. -/
theorem flatten_apply {α : Type} (Y : S4096x100x32.Idx → α) (b : Fin 4096) (q : Fin 3200) :
    shapeCast S4096x3200 Y shapeCasts_S4096x100x32_S4096x3200 (ix2 b q) = Y (ix3 b (split q) (coord q)) := by
  refine shapeCast_apply Y _ _ _ ?_
  rw [Shape.rowMajor_val_two, Shape.rowMajor_val_three]
  show (b.val * 100 + q.val / 32) * 32 + q.val % 32 = b.val * 3200 + q.val
  omega

/-- The split-major embedding `R`, transposed to sample-major and flattened, is the embedding `G`: at `(b, q)` the two
    operations read `R (q / 32, b, q % 32)`, which is the sum `Rat` for split `q / 32`, sample `b`, coordinate `q % 32`,
    and that is how `G (b, q)` is defined. -/
theorem flatten_swap_R (L : IVec ⟨2, ![4096, 2000]⟩ 32) (W : (⟨3, ![100, 1280, 32]⟩ : Shape).Idx → EReal) :
    shapeCast S4096x3200 (transpose S4096x100x32 [1, 0, 2] (R L W) transposes_S100x4096x32_S4096x100x32_1_0_2)
      shapeCasts_S4096x100x32_S4096x3200 = G L W := by
  funext i
  rw [eq_ix2 i]
  -- the reshape, then the transpose, each at its index; what is left is `R` and `G` unfolded to the same `Rat`
  exact (flatten_apply _ (i 0) (i 1)).trans (swap_apply (R L W) (i 0) (split (i 1)) (coord (i 1)))

/-! ## The lines of @main after the region -/

/-- What the two operations after the region leave in the result array: they act on the region's output array, which holds
    `R` of the arguments after the last grid point (`region_final`), so the result is `G` of the arguments. -/
theorem tail_value (m : (ℓ : Loc nD τ sig) → Buf (Elt Ideal) ℓ)
    (hL : ∀ (c : Dev nD) i, ((m ((c.tc : Thread nD τ).loc main_arg0)) i : BitVec 32).toNat < 64) (c : Dev nD) :
    Pipeline.afterTail₀ cfgs (dats m) 0 (V0 m) [hostOps1] c main_v5
      = G (m ((c.tc : Thread nD τ).loc main_arg0)) (m ((c.tc : Thread nD τ).loc main_arg1)) := by
  unfold Pipeline.afterTail₀
  show StableHlo.after hostOps1 _ (Proc.devRef .tc main_v5) = _
  -- the reshape's result is the reshape of the transpose's result, which is the transpose of the region's output array
  after_results
  -- that array is window 2's, at what the pipeline has written back by the end of the grid
  have hR : Pipeline.withArrays (cfgs 0).spec c (V0 m c) (fun w => (dats m 0 c).arrAt w (cfgs 0).N) (Proc.devRef .tc main_v3)
      = R (m ((c.tc : Thread nD τ).loc main_arg0)) (m ((c.tc : Thread nD τ).loc main_arg1)) :=
    (Pipeline.withArrays_arr spec0 launch0.win.arr_inj c _ _ 2).trans (region_final m hL c)
  rw [hR]
  exact flatten_swap_R (m ((c.tc : Thread nD τ).loc main_arg0)) (m ((c.tc : Thread nD τ).loc main_arg1))

/-! ## The run -/

/-- Every weakly fair execution of the kernel's @main ends with the result array at `G` of the arguments, and the
    arguments as they were. -/
theorem kernel_run (m : (ℓ : Loc nD τ sig) → Buf (Elt Ideal) ℓ) (ρ : Dev nD → PrngReg)
    (hL : ∀ (c : Dev nD) i, ((m ((c.tc : Thread nD τ).loc main_arg0)) i : BitVec 32).toNat < 64) :
    θ_run (defs (F := Ideal)) (onTc (τ := τ) (main (F := Ideal))) ⟨m, fun _ => 0, ρ⟩ (fun r => ∀ c : Dev nD,
      r.2.mem ((c.tc : Thread nD τ).loc main_v5) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  -- The frame's run ends with every buffer that is no array of the pipeline at what the lines after the region leave in
  -- it. The result array and the two arguments are such buffers: the first is read by `tail_value`, and the arguments are
  -- written by no line of @main.
  (θ_run defs _ _).mono (fun r h c =>
    ⟨((h c).2 main_v5 (Pipeline.mem_restRefs_of main_v5 (by decide) (by decide))).trans (tail_value m hL c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.LeafEmbed

end
-- ==== Proof.lean ====
/-
  A sum of table rows selected by leaf ids, computed two ways.

  Kernel: per split, for each of its 20 trees, the leaf ids of a block of samples are compared with 0 … 63 to make a
  0/1 matrix, which is multiplied (batched over the splits) with that tree's 64 rows of the table and added into the
  output block, starting from zero. Reference: the row `64 t + leaf` of the split's table is gathered for every sample
  and tree, and the 20 gathered rows are summed.

  A 0/1 row with its single 1 at the leaf's position picks out exactly that table row, so each of the kernel's 20 products
  is the reference's gathered row, and the two sums have the same 20 terms (`Cert.LeafEmbed.G`). This needs the leaf id to
  be one of the 64 positions: a leaf outside `[0, 64)` matches no position in the kernel and contributes nothing, while the
  reference reads whatever row `64 t + leaf` is. The precondition therefore states that range, and the proof uses it on both
  sides. Nothing else is used of the inputs: at the ideal instance the changes of float format are the identity, and only
  commutativity and associativity of the extended reals' addition are needed, so the table's finiteness is never opened.

  The three frames are the generated ones (the reference's is its generated run with the result dropped); the ideal pass
  rewrote nothing, so the idealization conjunct is `True`.
-/
import proofs.«403381_j56607668961387_2_alg».proof.Defs
import proofs.«403381_j56607668961387_2_alg».proof.Proof.Gen.Kernel
import proofs.«403381_j56607668961387_2_alg».proof.Proof.Gen.Kernel.Skeleton
import proofs.«403381_j56607668961387_2_alg».proof.Proof.Gen.Kernel.Launch
import proofs.«403381_j56607668961387_2_alg».proof.Proof.Gen.Kernel.Points
import proofs.«403381_j56607668961387_2_alg».proof.Proof.Gen.Kernel.Frame
import proofs.«403381_j56607668961387_2_alg».proof.Proof.Gen.KernelIdeal
import proofs.«403381_j56607668961387_2_alg».proof.Proof.Gen.KernelIdeal.Skeleton
import proofs.«403381_j56607668961387_2_alg».proof.Proof.Gen.KernelIdeal.Launch
import proofs.«403381_j56607668961387_2_alg».proof.Proof.Gen.KernelIdeal.Points
import proofs.«403381_j56607668961387_2_alg».proof.Proof.Gen.KernelIdeal.Frame
import proofs.«403381_j56607668961387_2_alg».proof.Proof.Gen.ReferenceIdeal
import proofs.«403381_j56607668961387_2_alg».proof.Proof.Gen.Pre_finite_inputs
import proofs.«403381_j56607668961387_2_alg».proof.Proof.Gen.ReferenceIdeal.Run
import proofs.«403381_j56607668961387_2_alg».proof.Proof.Gen.ReferenceIdeal.Read
import proofs.«403381_j56607668961387_2_alg».proof.Proof.LeafSpec
import proofs.«403381_j56607668961387_2_alg».proof.Proof.LeafRange
import proofs.«403381_j56607668961387_2_alg».proof.Proof.RefValue
import proofs.«403381_j56607668961387_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two arguments, where every leaf lies in `[0, 64)`, both programs end with their
    result at `G` of the arguments. -/
theorem algebraic : Cert.algebraic_KernelIdeal_ReferenceIdeal := by
  intro m ρ m' ρ' hpre hagree
  have hL : ∀ (c : Dev Cert.KernelIdeal.nD) i,
      ((m ((c.tc : Thread Cert.KernelIdeal.nD Cert.KernelIdeal.τ).loc Cert.KernelIdeal.main_arg0)) i : BitVec 32).toNat < 64 :=
    fun c => Cert.LeafEmbed.leaves_lt_of_pre _ _ (hpre c)
  refine ⟨fun c => Cert.LeafEmbed.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.LeafEmbed.kernel_run m ρ hL, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v25_eq, (hagree c).1, (hagree c).2]
  exact Cert.LeafEmbed.ref_value _ _ (hL c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
